-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S512x2 .f32) (main_arg12 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x2 .f32 := Host.absf main_arg11
  let main_cst_20 : FVec F S_ .f32 := constant S_ .f32 0x7F800000#32
  let main_v55 : FVec F S512x2 .f32 := broadcastInDim S512x2 ![] bcast_S_S512x2 main_cst_20
  let main_v56 : IVec S512x2 1 := cmpf .olt main_v54 main_v55
  let main_c_21 : IVec S_ 1 := constantI S_ 1 1#1
  let main_v57 : IVec S_ 1 := (fun x v => Host.reduce IntOp.andi x v reducesTo_S512x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S512x2 .f32) (main_arg12 : FVec F S2 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S1024x512 .f32) (main_arg6 : FVec F S512 .f32) (main_arg7 : FVec F S512x512 .f32) (main_arg8 : FVec F S512 .f32) (main_arg9 : FVec F S512x512 .f32) (main_arg10 : FVec F S512 .f32) (main_arg11 : FVec F S512x2 .f32) (main_arg12 : FVec F S2 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x128x256 .f32) (main_arg1 : FVec F S256x512 .f32) (main_arg2 : FVec F S512 .f32) (main_arg3 : FVec F S512x512 .f32) (main_arg4 : FVec F S512 .f32) (main_arg5 : FVec F S1024x512 .f32) (main_arg6 : FVec F S512 .f32) (main_arg7 : FVec F S512x512 .f32) (main_arg8 : FVec F S512 .f32) (main_arg9 : FVec F S512x512 .f32) (main_arg10 : FVec F S512 .f32) (main_arg11 : FVec F S512x2 .f32) (main_arg12 : FVec F S2 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S8x128x512 : Shape := ⟨3, ![8, 128, 512]⟩
abbrev S1x128x256 : Shape := ⟨3, ![1, 128, 256]⟩
abbrev S1x128x512 : Shape := ⟨3, ![1, 128, 512]⟩
abbrev S128x256 : Shape := ⟨2, ![128, 256]⟩
abbrev S128x512 : Shape := ⟨2, ![128, 512]⟩
abbrev S1x512 : Shape := ⟨2, ![1, 512]⟩
abbrev S8x128x128x2 : Shape := ⟨4, ![8, 128, 128, 2]⟩
abbrev S1x16x512 : Shape := ⟨3, ![1, 16, 512]⟩
abbrev S1x16x128x2 : Shape := ⟨4, ![1, 16, 128, 2]⟩
abbrev S16x512 : Shape := ⟨2, ![16, 512]⟩
abbrev S16x1x512 : Shape := ⟨3, ![16, 1, 512]⟩
abbrev S16x128x512 : Shape := ⟨3, ![16, 128, 512]⟩
abbrev S1x1x512 : Shape := ⟨3, ![1, 1, 512]⟩
abbrev S2048x512 : Shape := ⟨2, ![2048, 512]⟩
abbrev S2048x2 : Shape := ⟨2, ![2048, 2]⟩
abbrev S1x2 : Shape := ⟨2, ![1, 2]⟩
abbrev S16x128x2 : Shape := ⟨3, ![16, 128, 2]⟩

abbrev nBuf : Space → Nat
  | .hbm => 26
  | .vmem => 25
  | .smem => 0
  | _ => 0

abbrev bufTy : (tb : Table) → Fin (tcTables nBuf tb) → BufTy
  | .hbm, ⟨0, _⟩ => ⟨S8x128x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S8x128x256, .bf16⟩
  | .hbm, ⟨14, _⟩ => ⟨S256x512, .bf16⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S8x128x512, .f32⟩
  | .hbm, ⟨21, _⟩ => ⟨S8x128x512, .f32⟩
  | .hbm, ⟨22, _⟩ => ⟨S512x512, .bf16⟩
  | .hbm, ⟨23, _⟩ => ⟨S512x512, .bf16⟩
  | .hbm, ⟨24, _⟩ => ⟨S512x2, .bf16⟩
  | .hbm, ⟨25, _⟩ => ⟨S8x128x128x2, .f32⟩
  | .local _ .vmem, ⟨0, _⟩ => ⟨S1x128x256, .bf16⟩
  | .local _ .vmem, ⟨1, _⟩ => ⟨S1x128x256, .bf16⟩
  | .local _ .vmem, ⟨2, _⟩ => ⟨S256x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x16x512, .f32⟩
  | .local _ .vmem, ⟨15, _⟩ => ⟨S1x16x512, .f32⟩
  | .local _ .vmem, ⟨16, _⟩ => ⟨S512, .f32⟩
  | .local _ .vmem, ⟨17, _⟩ => ⟨S512x512, .bf16⟩
  | .local _ .vmem, ⟨18, _⟩ => ⟨S512, .f32⟩
  | .local _ .vmem, ⟨19, _⟩ => ⟨S512x512, .bf16⟩
  | .local _ .vmem, ⟨20, _⟩ => ⟨S512, .f32⟩
  | .local _ .vmem, ⟨21, _⟩ => ⟨S512x2, .bf16⟩
  | .local _ .vmem, ⟨22, _⟩ => ⟨S2, .f32⟩
  | .local _ .vmem, ⟨23, _⟩ => ⟨S1x16x128x2, .f32⟩
  | .local _ .vmem, ⟨24, _⟩ => ⟨S1x16x128x2, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x2 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x16x128x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  bitsLt_bf16_f32 : FTy.bits .bf16 < FTy.bits .f32
  slices_S1024x512_S512x512_0_0 : S1024x512.Slices ![0, 0] S512x512
  slices_S1024x512_S512x512_512_0 : S1024x512.Slices ![512, 0] S512x512
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S16x1x512 : S16x512.ShapeCasts S16x1x512
  broadcasts_S16x1x512_S16x128x512 : S16x1x512.Broadcasts S16x128x512
  broadcasts_S1x128x512_S16x128x512 : S1x128x512.Broadcasts S16x128x512
  shapeCasts_S512_S1x1x512 : S512.ShapeCasts S1x1x512
  broadcasts_S1x1x512_S16x128x512 : S1x1x512.Broadcasts S16x128x512
  shapeCasts_S16x128x512_S2048x512 : S16x128x512.ShapeCasts S2048x512
  broadcasts_S1x512_S2048x512 : S1x512.Broadcasts S2048x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  shapeCasts_S2048x2_S16x128x2 : S2048x2.ShapeCasts S16x128x2
  inb_S1x16x128x2_S1x16x128x2_0_0_0_0 : ∀ a, (![0, 0, 0, 0] : Fin 4 → Nat) a + S1x16x128x2.size a ≤ S1x16x128x2.size a
  h_S1x16x128x2 : 0 < S1x16x128x2.numel
  shapeCasts_S1x16x128x2_S16x128x2 : S1x16x128x2.ShapeCasts S16x128x2
  shapeCasts_S16x128x2_S1x16x128x2 : S16x128x2.ShapeCasts S1x16x128x2
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  dot_S2048x512_S512x512_S2048x512_1_0_0_1_n_n_wf : DotDims.WF S2048x512 S512x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S8x128x256.size a
  hwx0_0 : ∀ i : grid0.Coords, EltTy.bits .bf16 = 32 ∨ (Rect.block (s := S8x128x256) S1x128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x512.size a ≤ S8x128x512.size a
  hwx0_7 : ∀ i : grid0.Coords, EltTy.bits .f32 = 32 ∨ (Rect.block (s := S8x128x512) S1x128x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x512.size a ≤ S8x128x512.size a
  hwx0_8 : ∀ i : grid0.Coords, EltTy.bits .f32 = 32 ∨ (Rect.block (s := S8x128x512) S1x128x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S8x128x512.size a
  hwx1_0 : ∀ i : grid1.Coords, EltTy.bits .f32 = 32 ∨ (Rect.block (s := S8x128x512) S1x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x512.size a ≤ S8x128x512.size a
  hwx1_1 : ∀ i : grid1.Coords, EltTy.bits .f32 = 32 ∨ (Rect.block (s := S8x128x512) S1x16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x2.size a ≤ S512x2.size a
  hwx1_7 : ∀ i : grid1.Coords, EltTy.bits .bf16 = 32 ∨ (Rect.block (s := S512x2) S512x2.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S2.size a ≤ S2.size a
  hwx1_8 : ∀ i : grid1.Coords, EltTy.bits .f32 = 32 ∨ (Rect.block (s := S2) S2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x16x128x2.size a ≤ S8x128x128x2.size a
  hwx1_9 : ∀ i : grid1.Coords, EltTy.bits .f32 = 32 ∨ (Rect.block (s := S8x128x128x2) S1x16x128x2.size (cc1_transform_9 i) (hinb1_9 i)).WholeWords (EltTy.packing .f32)

variable [Facts₀]

def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_v0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S1x128x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x128x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v7_0) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_1) S1x16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S512x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x16x128x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8x128x256 : Shape := ⟨3, ![8, 128, 256]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S512x2 : Shape := ⟨2, ![512, 2]⟩
abbrev S2 : Shape := ⟨1, ![2]⟩
abbrev S1024x256 : Shape := ⟨2, ![1024, 256]⟩
abbrev S1x512 : Shape := ⟨2, ![1, 512]⟩
abbrev S_ : Shape := ⟨0, ![]⟩
abbrev S8x128x512 : Shape := ⟨3, ![8, 128, 512]⟩
abbrev S8x1x128x512 : Shape := ⟨4, ![8, 1, 128, 512]⟩
abbrev S8x128x128x512 : Shape := ⟨4, ![8, 128, 128, 512]⟩
abbrev S8x128x1x512 : Shape := ⟨4, ![8, 128, 1, 512]⟩
abbrev S8x128x128x1024 : Shape := ⟨4, ![8, 128, 128, 1024]⟩
abbrev S131072x1024 : Shape := ⟨2, ![131072, 1024]⟩
abbrev S131072x512 : Shape := ⟨2, ![131072, 512]⟩
abbrev S131072x2 : Shape := ⟨2, ![131072, 2]⟩
abbrev S1x2 : Shape := ⟨2, ![1, 2]⟩
abbrev S8x128x128x2 : Shape := ⟨4, ![8, 128, 128, 2]⟩

abbrev nBuf : Space → Nat
  | .hbm => 61
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S256x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x2, .f32⟩
  | .hbm, ⟨12, _⟩ => ⟨S2, .f32⟩
  | .hbm, ⟨13, _⟩ => ⟨S1024x256, .f32⟩
  | .hbm, ⟨14, _⟩ => ⟨S1024x512, .f32⟩
  | .hbm, ⟨15, _⟩ => ⟨S1x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1x512, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S8x128x512, .f32⟩
  | .hbm, ⟨29, _⟩ => ⟨S8x1x128x512, .f32⟩
  | .hbm, ⟨30, _⟩ => ⟨S8x128x128x512, .f32⟩
  | .hbm, ⟨31, _⟩ => ⟨S8x128x1x512, .f32⟩
  | .hbm, ⟨32, _⟩ => ⟨S8x128x128x512, .f32⟩
  | .hbm, ⟨33, _⟩ => ⟨S8x128x128x1024, .f32⟩
  | .hbm, ⟨34, _⟩ => ⟨S131072x1024, .f32⟩
  | .hbm, ⟨35, _⟩ => ⟨S131072x512, .f32⟩
  | .hbm, ⟨36, _⟩ => ⟨S1x512, .f32⟩
  | .hbm, ⟨37, _⟩ => ⟨S131072x512, .f32⟩
  | .hbm, ⟨38, _⟩ => ⟨S131072x512, .f32⟩
  | .hbm, ⟨39, _⟩ => ⟨S_, .f32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S1x512, .f32⟩
  | .hbm, ⟨44, _⟩ => ⟨S131072x512, .f32⟩
  | .hbm, ⟨45, _⟩ => ⟨S131072x512, .f32⟩
  | .hbm, ⟨46, _⟩ => ⟨S_, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S1x512, .f32⟩
  | .hbm, ⟨51, _⟩ => ⟨S131072x512, .f32⟩
  | .hbm, ⟨52, _⟩ => ⟨S131072x512, .f32⟩
  | .hbm, ⟨53, _⟩ => ⟨S_, .f32⟩
  | .hbm, ⟨54, _⟩ => ⟨S131072x512, .f32⟩
  | .hbm, ⟨55, _⟩ => ⟨S131072x512, .f32⟩
  | .hbm, ⟨56, _⟩ => ⟨S131072x2, .f32⟩
  | .hbm, ⟨57, _⟩ => ⟨S1x2, .f32⟩
  | .hbm, ⟨58, _⟩ => ⟨S131072x2, .f32⟩
  | .hbm, ⟨59, _⟩ => ⟨S131072x2, .f32⟩
  | .hbm, ⟨60, _⟩ => ⟨S8x128x128x2, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_cst : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_cst : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call3_cst : Ref sig .tc := ⟨.hbm, 46, rfl⟩
abbrev main_call3_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call4_cst : Ref sig .tc := ⟨.hbm, 53, rfl⟩
abbrev main_call4_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  shapeCasts_S8x128x256_S1024x256 : S8x128x256.ShapeCasts S1024x256
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  shapeCasts_S1024x512_S8x128x512 : S1024x512.ShapeCasts S8x128x512
  bcast_S8x128x512_S8x1x128x512_0_2_3 : S8x128x512.BroadcastsInDim S8x1x128x512 (![0, 2, 3] : Fin 3 → Fin S8x1x128x512.rank)
  bcast_S8x1x128x512_S8x128x128x512_0_1_2_3 : S8x1x128x512.BroadcastsInDim S8x128x128x512 (![0, 1, 2, 3] : Fin 4 → Fin S8x128x128x512.rank)
  bcast_S8x128x512_S8x128x1x512_0_1_3 : S8x128x512.BroadcastsInDim S8x128x1x512 (![0, 1, 3] : Fin 3 → Fin S8x128x1x512.rank)
  bcast_S8x128x1x512_S8x128x128x512_0_1_2_3 : S8x128x1x512.BroadcastsInDim S8x128x128x512 (![0, 1, 2, 3] : Fin 4 → Fin S8x128x128x512.rank)
  concatenates_S8x128x128x512_S8x128x128x512_S8x128x128x1024_d3 : Shape.Concatenates [S8x128x128x512, S8x128x128x512] S8x128x128x1024 3
  shapeCasts_S8x128x128x1024_S131072x1024 : S8x128x128x1024.ShapeCasts S131072x1024
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  shapeCasts_S131072x2_S8x128x128x2 : S131072x2.ShapeCasts S8x128x128x2
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S131072x1024_S1024x512_S131072x512_1_0_0_1_n_n_wf : DotDims.WF S131072x1024 S1024x512 S131072x512 [1] [0] [0] [1] [] []
  dot_S131072x512_S512x512_S131072x512_1_0_0_1_n_n_wf : DotDims.WF S131072x512 S512x512 S131072x512 [1] [0] [0] [1] [] []
  dot_S131072x512_S512x2_S131072x2_1_0_0_1_n_n_wf : DotDims.WF S131072x512 S512x2 S131072x2 [1] [0] [0] [1] [] []

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x2_S131072x2_1_0_0_1_n_n : DotDims S131072x512 S512x2 S131072x2 where
  lhsContracting := [1]
  rhsContracting := [0]
  lhsNonContracting := [0]
  rhsNonContracting := [1]
  lhsBatch := []
  rhsBatch := []
  wf := dot_S131072x512_S512x2_S131072x2_1_0_0_1_n_n_wf

class Facts : Prop extends Facts₀ where

variable [Facts]
-- ==== Proof.Spec.lean ====
/-
  The mathematics both programs compute, stated once over the extended reals and free of either program's text.

  A node's features are two dense layers with a rectifier on a row of the input; an edge (i, j) of a batch feeds the
  concatenation of node j's and node i's features through three more rectified dense layers and a final affine map
  to two values.  The first of those three layers has a weight matrix of 1024 rows: its product with a concatenation is
  the sum of the upper half's product with the first part and the lower half's product with the second part, which is
  the one law that separates the two programs (`layer_cat`); it needs only that addition of extended reals is
  commutative and associative and that a sum over 1024 indices splits at 512.
-/
import Idealize.ShloMosaic.Lib.ValueIdx
import Idealize.ShloMosaic.PureOps.Ideal

noncomputable section

namespace Cert.Spec

open Idealize.ShloMosaic Idealize.ShloMosaic.ValueIdx

/-- Arrays of extended reals over literal shapes. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal
abbrev Arr4 (a b c d : ℕ) : Type := (⟨4, ![a, b, c, d]⟩ : Shape).Idx → EReal

/-- A row times a matrix: entry `n` of `x · W`. -/
def proj {K N : ℕ} (x : Fin K → EReal) (W : Arr2 K N) (n : Fin N) : EReal :=
  ∑ k : Fin K, x k * W (ix2 k n)

/-- An affine map of a row: `x · W + b`. -/
def lin {K N : ℕ} (x : Fin K → EReal) (W : Arr2 K N) (b : Arr1 N) (n : Fin N) : EReal :=
  proj x W n + b (ix1 n)

/-- A dense layer with a rectifier: `max (x · W + b) 0`. -/
def layer {K N : ℕ} (x : Fin K → EReal) (W : Arr2 K N) (b : Arr1 N) (n : Fin N) : EReal :=
  max (lin x W b n) 0

/-- The features of node `n` of batch `b`: two rectified dense layers on row `(b, n)` of the input. -/
def feat (X : Arr3 8 128 256) (Wa : Arr2 256 512) (ba : Arr1 512) (Wb : Arr2 512 512) (bb : Arr1 512)
    (b : Fin 8) (n : Fin 128) : Fin 512 → EReal :=
  layer (layer (fun d => X (ix3 b n d)) Wa ba) Wb bb

/-- What follows an edge's first hidden row `h1`: two rectified dense layers and the affine map to two values. -/
def head (h1 : Fin 512 → EReal) (Wcb : Arr2 512 512) (bcb : Arr1 512) (Wcc : Arr2 512 512) (bcc : Arr1 512)
    (Wo : Arr2 512 2) (bo : Arr1 2) (o : Fin 2) : EReal :=
  lin (layer (layer h1 Wcb bcb) Wcc bcc) Wo bo o

/-- An edge's first hidden row from the two per-node terms: `max ((tb + ta) + bca) 0`. -/
def hidden (ta tb : Fin 512 → EReal) (bca : Arr1 512) (k : Fin 512) : EReal :=
  max ((tb k + ta k) + bca (ix1 k)) 0

/-- The concatenation of two rows of 512 entries. -/
def cat (u v : Fin 512 → EReal) (l : Fin 1024) : EReal :=
  if h : l.val < 512 then u ⟨l.val, h⟩ else v ⟨l.val - 512, by have := l.isLt; omega⟩

/-- Rows 0 to 511 of a matrix of 1024 rows. -/
def top (W : Arr2 1024 512) : Arr2 512 512 := fun idx =>
  W (ix2 (⟨(idx 0).val, Nat.lt_of_lt_of_le (idx2_lt0 idx) (by decide)⟩ : Fin 1024) (⟨(idx 1).val, idx2_lt1 idx⟩ : Fin 512))

/-- Rows 512 to 1023 of a matrix of 1024 rows. -/
def bot (W : Arr2 1024 512) : Arr2 512 512 := fun idx =>
  W (ix2 (⟨512 + (idx 0).val, by have := idx2_lt0 idx; omega⟩ : Fin 1024) (⟨(idx 1).val, idx2_lt1 idx⟩ : Fin 512))

/-- The product of a concatenation with a matrix of 1024 rows splits into the two halves' products. -/
theorem proj_cat (u v : Fin 512 → EReal) (W : Arr2 1024 512) (k : Fin 512) :
    proj (cat u v) W k = proj u (top W) k + proj v (bot W) k := by
  unfold proj
  have hsplit := Fin.sum_univ_add (M := EReal) (a := 512) (b := 512) (fun l : Fin (512 + 512) => cat u v l * W (ix2 l k))
  refine hsplit.trans (congrArg₂ (· + ·) ?_ ?_)
  · refine Finset.sum_congr rfl fun l _ => ?_
    have hl : (Fin.castAdd 512 l).val < 512 := l.isLt
    unfold cat top
    rw [dif_pos hl]
    rfl
  · refine Finset.sum_congr rfl fun l _ => ?_
    have hl : ¬ (Fin.natAdd 512 l).val < 512 := by simp [Fin.natAdd]
    unfold cat bot
    rw [dif_neg hl]
    have e : (⟨(Fin.natAdd 512 l).val - 512, by have := (Fin.natAdd 512 l).isLt; omega⟩ : Fin 512) = l :=
      Fin.ext (by simp [Fin.natAdd])
    rw [e]
    rfl

/-- The first edge layer on a concatenation is the rectified sum of the two per-node terms and the bias. -/
theorem layer_cat (u v : Fin 512 → EReal) (W : Arr2 1024 512) (bca : Arr1 512) (k : Fin 512) :
    layer (cat u v) W bca k = hidden (proj u (top W)) (proj v (bot W)) bca k := by
  unfold layer lin hidden
  rw [proj_cat, add_comm (proj u (top W) k)]

/-- The kernel's arrangement: the per-node terms `ta` (from node j) and `tb` (from node i) are formed first. -/
def outK (X : Arr3 8 128 256) (Wa : Arr2 256 512) (ba : Arr1 512) (Wb : Arr2 512 512) (bb : Arr1 512)
    (W1 W2 : Arr2 512 512) (bca : Arr1 512) (Wcb : Arr2 512 512) (bcb : Arr1 512) (Wcc : Arr2 512 512) (bcc : Arr1 512)
    (Wo : Arr2 512 2) (bo : Arr1 2) (b : Fin 8) (i j : Fin 128) (o : Fin 2) : EReal :=
  head (hidden (proj (feat X Wa ba Wb bb b j) W1) (proj (feat X Wa ba Wb bb b i) W2) bca) Wcb bcb Wcc bcc Wo bo o

/-- The reference's arrangement: the concatenated features go through the layer of 1024 inputs. -/
def outR (X : Arr3 8 128 256) (Wa : Arr2 256 512) (ba : Arr1 512) (Wb : Arr2 512 512) (bb : Arr1 512)
    (Wca : Arr2 1024 512) (bca : Arr1 512) (Wcb : Arr2 512 512) (bcb : Arr1 512) (Wcc : Arr2 512 512) (bcc : Arr1 512)
    (Wo : Arr2 512 2) (bo : Arr1 2) (b : Fin 8) (i j : Fin 128) (o : Fin 2) : EReal :=
  head (layer (cat (feat X Wa ba Wb bb b j) (feat X Wa ba Wb bb b i)) Wca bca) Wcb bcb Wcc bcc Wo bo o

/-- The two arrangements are one function when the kernel's two matrices are the halves of the reference's. -/
theorem outR_eq_outK (X : Arr3 8 128 256) (Wa : Arr2 256 512) (ba : Arr1 512) (Wb : Arr2 512 512) (bb : Arr1 512)
    (Wca : Arr2 1024 512) (bca : Arr1 512) (Wcb : Arr2 512 512) (bcb : Arr1 512) (Wcc : Arr2 512 512) (bcc : Arr1 512)
    (Wo : Arr2 512 2) (bo : Arr1 2) (b : Fin 8) (i j : Fin 128) (o : Fin 2) :
    outR X Wa ba Wb bb Wca bca Wcb bcb Wcc bcc Wo bo b i j o
      = outK X Wa ba Wb bb (top Wca) (bot Wca) bca Wcb bcb Wcc bcc Wo bo b i j o := by
  unfold outR outK
  exact congrArg (fun h => head h Wcb bcb Wcc bcc Wo bo o) (funext fun k => layer_cat _ _ Wca bca k)

end Cert.Spec

end
-- ==== Proof.NodeValue.lean ====
/-
  The node kernel's two outputs as whole arrays.  Grid point b of the first pallas_call reads batch b of the input and
  the resident weights and writes batch b of two arrays: the node features (two rectified dense layers) multiplied by
  the upper, respectively the lower, 512 rows' matrix.  The eight blocks tile each output array, so after the region
  entry (b, n, k) of either array is that row-times-matrix product of node (b, n)'s features.
-/
import proofs.«152844_j21406117003470_1_alg».proof.Proof.Gen.KernelIdeal.Frame
import proofs.«152844_j21406117003470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Node (b, n)'s features, from the arrays as the first region finds them. -/
abbrev featAt (c : Dev nD) (b : Fin 8) (n : Fin 128) : Fin 512 → EReal :=
  Cert.Spec.feat (V c main_v0) (V c main_v1) (V c main_arg2) (V c main_v2) (V c main_arg4) b n

/-! ## The two matrix products at an index

For each product: which coordinate of each operand an output index and a contraction index read (four facts, one per
operand axis), then the product with a zero accumulator at (n, k) as row n times column k. -/

theorem lhsA_0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
  rfl
theorem lhsA_1 (i : S128x512.Idx) (q : dot_S128x256_S256x512_S128x512_1_0_0_1_n_n.contr.Idx) :
    (dot_S128x256_S256x512_S128x512_1_0_0_1_n_n.lhsIdx i q 1).val = (q ⟨0, by decide⟩).val :=
  dot_S128x256_S256x512_S128x512_1_0_0_1_n_n.lhsIdx_val_of_single rfl i q
theorem rhsA_0 (i : S128x512.Idx) (q : dot_S128x256_S256x512_S128x512_1_0_0_1_n_n.contr.Idx) :
    (dot_S128x256_S256x512_S128x512_1_0_0_1_n_n.rhsIdx i q 0).val = (q ⟨0, by decide⟩).val :=
  dot_S128x256_S256x512_S128x512_1_0_0_1_n_n.rhsIdx_val_of_single rfl i q
theorem rhsA_1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
  rfl

/-- The product of a [128, 256] by a [256, 512] matrix with a zero accumulator, at (n, k): row n times column k. -/
theorem matmulA_apply (l : FVec Ideal S128x256 .bf16) (r : FVec Ideal S256x512 .bf16) (n : Fin 128) (k : Fin 512) :
    matmul dot_S128x256_S256x512_S128x512_1_0_0_1_n_n none l r (constant (F := Ideal) S128x512 .f32 0x00000000#32) (ix2 n k)
      = ∑ d : Fin 256, l (ix2 n d) * r (ix2 d k) := by
  show FloatOps.matmul _ none l r (constant (F := Ideal) _ .f32 0x00000000#32) (ix2 n k) = _
  rw [Ideal.matmul_constant_zero_apply, ← Equiv.sum_comp (ValueIdx.contrEquiv1 dot_S128x256_S256x512_S128x512_1_0_0_1_n_n 256 rfl rfl).symm]
  refine Finset.sum_congr rfl fun d _ => ?_
  have hd := ValueIdx.contrEquiv1_symm_val dot_S128x256_S256x512_S128x512_1_0_0_1_n_n 256 rfl rfl d
  have el : dot_S128x256_S256x512_S128x512_1_0_0_1_n_n.lhsIdx (ix2 n k) ((ValueIdx.contrEquiv1 dot_S128x256_S256x512_S128x512_1_0_0_1_n_n 256 rfl rfl).symm d) = ix2 n d := funext fun a => Fin.ext (by
    match a with
    | ⟨0, _⟩ => exact lhsA_0 _ _
    | ⟨1, _⟩ => exact (lhsA_1 _ _).trans hd)
  have er : dot_S128x256_S256x512_S128x512_1_0_0_1_n_n.rhsIdx (ix2 n k) ((ValueIdx.contrEquiv1 dot_S128x256_S256x512_S128x512_1_0_0_1_n_n 256 rfl rfl).symm d) = ix2 d k := funext fun a => Fin.ext (by
    match a with
    | ⟨0, _⟩ => exact (rhsA_0 _ _).trans hd
    | ⟨1, _⟩ => exact rhsA_1 _ _)
  rw [el, er]

theorem lhsB_0 (i : S128x512.Idx) (q : dot_S128x512_S512x512_S128x512_1_0_0_1_n_n.contr.Idx) :
    (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem lhsB_1 (i : S128x512.Idx) (q : dot_S128x512_S512x512_S128x512_1_0_0_1_n_n.contr.Idx) :
    (dot_S128x512_S512x512_S128x512_1_0_0_1_n_n.lhsIdx i q 1).val = (q ⟨0, by decide⟩).val :=
  dot_S128x512_S512x512_S128x512_1_0_0_1_n_n.lhsIdx_val_of_single rfl i q
theorem rhsB_0 (i : S128x512.Idx) (q : dot_S128x512_S512x512_S128x512_1_0_0_1_n_n.contr.Idx) :
    (dot_S128x512_S512x512_S128x512_1_0_0_1_n_n.rhsIdx i q 0).val = (q ⟨0, by decide⟩).val :=
  dot_S128x512_S512x512_S128x512_1_0_0_1_n_n.rhsIdx_val_of_single rfl i q
theorem rhsB_1 (i : S128x512.Idx) (q : dot_S128x512_S512x512_S128x512_1_0_0_1_n_n.contr.Idx) :
    (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- The product of a [128, 512] by a [512, 512] matrix with a zero accumulator, at (n, k): row n times column k. -/
theorem matmulB_apply (l : FVec Ideal S128x512 .bf16) (r : FVec Ideal S512x512 .bf16) (n : Fin 128) (k : Fin 512) :
    matmul dot_S128x512_S512x512_S128x512_1_0_0_1_n_n none l r (constant (F := Ideal) S128x512 .f32 0x00000000#32) (ix2 n k)
      = ∑ d : Fin 512, l (ix2 n d) * r (ix2 d k) := by
  show FloatOps.matmul _ none l r (constant (F := Ideal) _ .f32 0x00000000#32) (ix2 n k) = _
  rw [Ideal.matmul_constant_zero_apply, ← Equiv.sum_comp (ValueIdx.contrEquiv1 dot_S128x512_S512x512_S128x512_1_0_0_1_n_n 512 rfl rfl).symm]
  refine Finset.sum_congr rfl fun d _ => ?_
  have hd := ValueIdx.contrEquiv1_symm_val dot_S128x512_S512x512_S128x512_1_0_0_1_n_n 512 rfl rfl d
  have el : dot_S128x512_S512x512_S128x512_1_0_0_1_n_n.lhsIdx (ix2 n k) ((ValueIdx.contrEquiv1 dot_S128x512_S512x512_S128x512_1_0_0_1_n_n 512 rfl rfl).symm d) = ix2 n d := funext fun a => Fin.ext (by
    match a with
    | ⟨0, _⟩ => exact lhsB_0 _ _
    | ⟨1, _⟩ => exact (lhsB_1 _ _).trans hd)
  have er : dot_S128x512_S512x512_S128x512_1_0_0_1_n_n.rhsIdx (ix2 n k) ((ValueIdx.contrEquiv1 dot_S128x512_S512x512_S128x512_1_0_0_1_n_n 512 rfl rfl).symm d) = ix2 d k := funext fun a => Fin.ext (by
    match a with
    | ⟨0, _⟩ => exact (rhsB_0 _ _).trans hd
    | ⟨1, _⟩ => exact rhsB_1 _ _)
  rw [el, er]

/-! ## The body's payloads at an index -/

/-- A dense layer of the body at (n, k): the product with the weight block, the bias row laid along every row, the
    rectifier, and the change of format, which at the ideal values is the identity. -/
theorem denseA_apply (l : FVec Ideal S128x256 .bf16) (w : Vec Ideal S256x512 .bf16) (b : Vec Ideal S512 .f32) (n : Fin 128) (k : Fin 512) :
    (truncf .bf16 (maximumf (addf (matmul dot_S128x256_S256x512_S128x512_1_0_0_1_n_n none l (shapeCast S256x512 w shapeCasts_S256x512_S256x512 : FVec Ideal S256x512 .bf16) (constant (F := Ideal) S128x512 .f32 0x00000000#32))
        (broadcastTo S128x512 (shapeCast S1x512 b shapeCasts_S512_S1x512) broadcasts_S1x512_S128x512))
        (broadcast S128x512 (Scalar.ofBits (F := Ideal) .f32 0x00000000#32))) bitsLt_bf16_f32 : FVec Ideal S128x512 .bf16) (ix2 n k)
      = Cert.Spec.layer (fun d => l (ix2 n d)) w b k := by
  rw [truncf_apply, maximumf_apply, addf_apply, broadcast_apply, matmulA_apply, broadcastTo_1b_ab_apply, shapeCast_a_1a_apply, shapeCast_self]
  show max ((∑ d, l (ix2 n d) * w (ix2 d k)) + b (ix1 k)) (Ideal.ofBits .f32 0x00000000#32) = _
  rw [Ideal.ofBits_zero_f32]
  rfl

/-- A dense layer of the body at (n, k): the product with the weight block, the bias row laid along every row, the
    rectifier, and the change of format, which at the ideal values is the identity. -/
theorem denseB_apply (l : FVec Ideal S128x512 .bf16) (w : Vec Ideal S512x512 .bf16) (b : Vec Ideal S512 .f32) (n : Fin 128) (k : Fin 512) :
    (truncf .bf16 (maximumf (addf (matmul dot_S128x512_S512x512_S128x512_1_0_0_1_n_n none l (shapeCast S512x512 w shapeCasts_S512x512_S512x512 : FVec Ideal S512x512 .bf16) (constant (F := Ideal) S128x512 .f32 0x00000000#32))
        (broadcastTo S128x512 (shapeCast S1x512 b shapeCasts_S512_S1x512) broadcasts_S1x512_S128x512))
        (broadcast S128x512 (Scalar.ofBits (F := Ideal) .f32 0x00000000#32))) bitsLt_bf16_f32 : FVec Ideal S128x512 .bf16) (ix2 n k)
      = Cert.Spec.layer (fun d => l (ix2 n d)) w b k := by
  rw [truncf_apply, maximumf_apply, addf_apply, broadcast_apply, matmulB_apply, broadcastTo_1b_ab_apply, shapeCast_a_1a_apply, shapeCast_self]
  show max ((∑ d, l (ix2 n d) * w (ix2 d k)) + b (ix1 k)) (Ideal.ofBits .f32 0x00000000#32) = _
  rw [Ideal.ofBits_zero_f32]
  rfl

/-- The body's features of row n of its input block: the two rectified dense layers. -/
theorem features_apply (x0 : Vec Ideal S1x128x256 .bf16) (x1 : Vec Ideal S256x512 .bf16) (x2 : Vec Ideal S512 .f32)
    (x3 : Vec Ideal S512x512 .bf16) (x4 : Vec Ideal S512 .f32) (n : Fin 128) (k : Fin 512) :
    k0_pay2 x0 x1 x2 x3 x4 (ix2 n k)
      = Cert.Spec.layer (Cert.Spec.layer (fun d => x0 (ix3 (0 : Fin 1) n d)) x1 x2) x3 x4 k := by
  unfold k0_pay2
  rw [denseB_apply]
  refine congrArg (fun f => Cert.Spec.layer f x3 x4 k) (funext fun j => ?_)
  rw [denseA_apply]
  refine congrArg (fun f => Cert.Spec.layer f x1 x2 j) (funext fun d => ?_)
  exact shapeCast_1ab_ab_apply x0 _ n d

/-- What the body stores into its first output block, at (u, n, k): row n's features times column k of the sixth block. -/
theorem storeA_apply (x0 : Vec Ideal S1x128x256 .bf16) (x1 : Vec Ideal S256x512 .bf16) (x2 : Vec Ideal S512 .f32)
    (x3 : Vec Ideal S512x512 .bf16) (x4 : Vec Ideal S512 .f32) (x5 : Vec Ideal S512x512 .bf16) (u : Fin 1) (n : Fin 128) (k : Fin 512) :
    k0_pay3 x0 x1 x2 x3 x4 x5 (ix3 u n k)
      = Cert.Spec.proj (Cert.Spec.layer (Cert.Spec.layer (fun d => x0 (ix3 (0 : Fin 1) n d)) x1 x2) x3 x4) x5 k := by
  unfold k0_pay3
  rw [shapeCast_ab_1ab_apply, matmulB_apply, shapeCast_self]
  unfold Cert.Spec.proj
  refine Finset.sum_congr rfl fun j _ => ?_
  rw [features_apply]

/-- What the body stores into its second output block, at (u, n, k): the same with the seventh block. -/
theorem storeB_apply (x0 : Vec Ideal S1x128x256 .bf16) (x1 : Vec Ideal S256x512 .bf16) (x2 : Vec Ideal S512 .f32)
    (x3 : Vec Ideal S512x512 .bf16) (x4 : Vec Ideal S512 .f32) (x6 : Vec Ideal S512x512 .bf16) (u : Fin 1) (n : Fin 128) (k : Fin 512) :
    k0_pay1 (k0_pay4 x0 x1 x2 x3 x4 x6) (ix3 u n k)
      = Cert.Spec.proj (Cert.Spec.layer (Cert.Spec.layer (fun d => x0 (ix3 (0 : Fin 1) n d)) x1 x2) x3 x4) x6 k := by
  unfold k0_pay1 k0_pay4
  rw [shapeCast_ab_1ab_apply, matmulB_apply, shapeCast_self]
  unfold Cert.Spec.proj
  refine Finset.sum_congr rfl fun j _ => ?_
  rw [features_apply]

/-! ## The blocks the body reads -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps of the input windows, decided over the grid: the input's block index is the grid point on the batch
    axis, and every weight window stays at block zero. -/
theorem input_block_index : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0 :=
  (by decide +kernel : ∀ t : Fin grid0.N, _)

/-- The index maps of the two output windows: block t on the batch axis. -/
theorem termA_block_index : ∀ t : Fin cfg0.N, win0_7.index t (0 : Fin 3) = t.val ∧ win0_7.index t (1 : Fin 3) = 0 ∧ win0_7.index t (2 : Fin 3) = 0 :=
  (by decide +kernel : ∀ t : Fin grid0.N, _)
theorem termB_block_index : ∀ t : Fin cfg0.N, win0_8.index t (0 : Fin 3) = t.val ∧ win0_8.index t (1 : Fin 3) = 0 ∧ win0_8.index t (2 : Fin 3) = 0 :=
  (by decide +kernel : ∀ t : Fin grid0.N, _)

/-- The input window's block at point t is batch t of the input array. -/
theorem input_block_apply (c : Dev nD) (t : Fin cfg0.N) (y : S1x128x256.Idx) (i : S8x128x256.Idx)
    (h0 : (i 0).val = t.val + (y 0).val) (h1 : (i 1).val = (y 1).val) (h2 : (i 2).val = (y 2).val) :
    (iblk0 V c 0 t : Vec Ideal S1x128x256 .bf16) y = (V c main_v0 : S8x128x256.Idx → EReal) i := by
  obtain ⟨e0_0, e0_1, e0_2, e1_0, e1_1, e2_0, e3_0, e3_1, e4_0, e5_0, e5_1, e6_0, e6_1⟩ := input_block_index t
  unfold iblk0
  rw [View.read_apply]
  show V c main_v0 _ = V c main_v0 i
  congr 1
  funext a
  apply Fin.ext
  match a with
  | ⟨0, _⟩ => show win0_0.index t 0 * 1 + 1 * (y 0).val = (i 0).val; rw [e0_0, h0]; omega
  | ⟨1, _⟩ => show win0_0.index t 1 * 128 + 1 * (y 1).val = (i 1).val; rw [e0_1, h1]; omega
  | ⟨2, _⟩ => show win0_0.index t 2 * 256 + 1 * (y 2).val = (i 2).val; rw [e0_2, h2]; omega

/-- The first weight window's block at any point is the whole array. -/
theorem weight1_block_eq (c : Dev nD) (t : Fin cfg0.N) :
    (iblk0 V c 1 t : Vec Ideal S256x512 .bf16) = (V c main_v1 : S256x512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_v1 _ = V c main_v1 y
  congr 1
  funext a
  apply Fin.ext
  match a with
  | ⟨0, _⟩ => show win0_1.index t 0 * 256 + 1 * (y 0).val = (y 0).val; rw [e1_0]; omega
  | ⟨1, _⟩ => show win0_1.index t 1 * 512 + 1 * (y 1).val = (y 1).val; rw [e1_1]; omega

/-- The first bias window's block at any point is the whole array. -/
theorem bias1_block_eq (c : Dev nD) (t : Fin cfg0.N) :
    (iblk0 V c 2 t : Vec Ideal S512 .f32) = (V c main_arg2 : S512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_arg2 _ = V c main_arg2 y
  congr 1
  funext a
  apply Fin.ext
  match a with
  | ⟨0, _⟩ => show win0_2.index t 0 * 512 + 1 * (y 0).val = (y 0).val; rw [e2_0]; omega

/-- The second weight window's block at any point is the whole array. -/
theorem weight2_block_eq (c : Dev nD) (t : Fin cfg0.N) :
    (iblk0 V c 3 t : Vec Ideal S512x512 .bf16) = (V c main_v2 : S512x512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_v2 _ = V c main_v2 y
  congr 1
  funext a
  apply Fin.ext
  match a with
  | ⟨0, _⟩ => show win0_3.index t 0 * 512 + 1 * (y 0).val = (y 0).val; rw [e3_0]; omega
  | ⟨1, _⟩ => show win0_3.index t 1 * 512 + 1 * (y 1).val = (y 1).val; rw [e3_1]; omega

/-- The second bias window's block at any point is the whole array. -/
theorem bias2_block_eq (c : Dev nD) (t : Fin cfg0.N) :
    (iblk0 V c 4 t : Vec Ideal S512 .f32) = (V c main_arg4 : S512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_arg4 _ = V c main_arg4 y
  congr 1
  funext a
  apply Fin.ext
  match a with
  | ⟨0, _⟩ => show win0_4.index t 0 * 512 + 1 * (y 0).val = (y 0).val; rw [e4_0]; omega

/-- The sixth operand's block at any point is the whole array. -/
theorem weightA_block_eq (c : Dev nD) (t : Fin cfg0.N) :
    (iblk0 V c 5 t : Vec Ideal S512x512 .bf16) = (V c main_v4 : S512x512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_v4 _ = V c main_v4 y
  congr 1
  funext a
  apply Fin.ext
  match a with
  | ⟨0, _⟩ => show win0_5.index t 0 * 512 + 1 * (y 0).val = (y 0).val; rw [e5_0]; omega
  | ⟨1, _⟩ => show win0_5.index t 1 * 512 + 1 * (y 1).val = (y 1).val; rw [e5_1]; omega

/-- The seventh operand's block at any point is the whole array. -/
theorem weightB_block_eq (c : Dev nD) (t : Fin cfg0.N) :
    (iblk0 V c 6 t : Vec Ideal S512x512 .bf16) = (V c main_v6 : S512x512.Idx → EReal) := by
  obtain ⟨e0_0, e0_1, e0_2, e1_0, e1_1, e2_0, e3_0, e3_1, e4_0, e5_0, e5_1, e6_0, e6_1⟩ := input_block_index t
  funext y
  unfold iblk0
  rw [View.read_apply]
  show V c main_v6 _ = V c main_v6 y
  congr 1
  funext a
  apply Fin.ext
  match a with
  | ⟨0, _⟩ => show win0_6.index t 0 * 512 + 1 * (y 0).val = (y 0).val; rw [e6_0]; omega
  | ⟨1, _⟩ => show win0_6.index t 1 * 512 + 1 * (y 1).val = (y 1).val; rw [e6_1]; omega

/-! ## Output window 7: the first output array -/

/-- The first output array, whole: at (b, n, k), node (b, n)'s features times column k of the sixth operand. -/
abbrev termA_arr (c : Dev nD) : S8x128x512.Idx → EReal := fun i =>
  Cert.Spec.proj (featAt V c (i 0) (i 1)) (V c main_v4) (i 2)

/-- The body's stored block over blocks that are batch b of the input and the whole weight arrays is batch b of the
    array above. -/
theorem termA_block (c : Dev nD) (b : Fin 8)
    (x0 : Vec Ideal S1x128x256 .bf16) (x1 : Vec Ideal S256x512 .bf16) (x2 : Vec Ideal S512 .f32)
    (x3 : Vec Ideal S512x512 .bf16) (x4 : Vec Ideal S512 .f32) (x5 : Vec Ideal S512x512 .bf16)
    (h0 : ∀ (n : Fin 128) (d : Fin 256), x0 (ix3 (0 : Fin 1) n d) = (V c main_v0 : S8x128x256.Idx → EReal) (ix3 b n d))
    (h1 : x1 = (V c main_v1 : S256x512.Idx → EReal)) (h2 : x2 = (V c main_arg2 : S512.Idx → EReal))
    (h3 : x3 = (V c main_v2 : S512x512.Idx → EReal)) (h4 : x4 = (V c main_arg4 : S512.Idx → EReal))
    (h5 : x5 = (V c main_v4 : S512x512.Idx → EReal))
    (y : S1x128x512.Idx) (i : S8x128x512.Idx)
    (hi0 : (i 0).val = b.val) (hi1 : (i 1).val = (y 1).val) (hi2 : (i 2).val = (y 2).val) :
    k0_pay3 x0 x1 x2 x3 x4 x5 y = termA_arr V c i := by
  subst h1 h2 h3 h4 h5
  obtain ⟨u, n, k, rfl⟩ : ∃ (u : Fin 1) (n : Fin 128) (k : Fin 512), y = ix3 u n k := ⟨y 0, y 1, y 2, eq_ix3 y⟩
  obtain rfl : i = ix3 b n k := by
    funext a
    apply Fin.ext
    match a with
    | ⟨0, _⟩ => exact hi0
    | ⟨1, _⟩ => exact hi1
    | ⟨2, _⟩ => exact hi2
  rw [storeA_apply, show (fun d => x0 (ix3 (0 : Fin 1) n d)) = fun d => (V c main_v0 : S8x128x256.Idx → EReal) (ix3 b n d) from funext (h0 n)]
  rfl

/-- What point t writes back is block t of the array above. -/
theorem termA_flushed (c : Dev nD) (t : Fin cfg0.N) :
    (dat0 V c).flushed 7 t = ((cfg0.win 7).blk t).view.read (Elt Ideal) (termA_arr V c) := by
  show (cfg0.win 7).cut (grid0.coords t) ((dat0 V c).after 7 t) = _
  rw [after0_7]
  unfold out0_7
  rw [View.canon_unit_zero hz3]
  simp only [View.ld_unit_zero (S := S1x128x256) hz3, View.ld_unit_zero (S := S256x512) hz2, View.ld_unit_zero (S := S512) hz1, View.ld_unit_zero (S := S512x512) hz2]
  obtain ⟨e0, e1, e2⟩ := termA_block_index t
  have ht : t.val < 8 := Nat.lt_of_lt_of_eq t.isLt N_0
  funext j
  refine termA_block V c ⟨t.val, ht⟩ (iblk0 V c 0 t) (iblk0 V c 1 t) (iblk0 V c 2 t) (iblk0 V c 3 t) (iblk0 V c 4 t) (iblk0 V c 5 t)
    (fun n d => input_block_apply V c t _ _ ?_ rfl rfl) (weight1_block_eq V c t) (bias1_block_eq V c t) (weight2_block_eq V c t) (bias2_block_eq V c t) (weightA_block_eq V c t)
    j (((cfg0.win 7).blk t).view.emb j) ?_ ?_ ?_
  · show t.val = t.val + 0
    omega
  · show win0_7.index t 0 * 1 + 1 * (j 0).val = t.val
    have hj : (j 0).val < 1 := (j 0).isLt
    rw [e0]; omega
  · show win0_7.index t 1 * 128 + 1 * (j 1).val = (j 1).val
    rw [e1]; omega
  · show win0_7.index t 2 * 512 + 1 * (j 2).val = (j 2).val
    rw [e2]; omega

/-- An index of the array is in point t's block iff each coordinate is in the block's range on its axis. -/
theorem termA_mem_block (t : Fin cfg0.N) (i : S8x128x512.Idx) :
    i ∈ ((cfg0.win 7).blk t).view.set ↔ ∀ a : Fin 3, win0_7.index t a * S1x128x512.size a ≤ (i a).val ∧ (i a).val < win0_7.index t a * S1x128x512.size a + S1x128x512.size a := by
  show i ∈ ((View.whole main_v7_0).slice (win0_7.rect t)).set ↔ _
  rw [View.set_slice_whole, Rect.mem_set_unit]
  exact Iff.rfl

/-- The eight blocks tile the array: the point that covers batch b is b. -/
theorem termA_cover (i : S8x128x512.Idx) :
    ∃ t : Fin cfg0.N, (cfg0.win 7).flush t = true ∧ i ∈ ((cfg0.win 7).blk t).view.set := by
  have hi0 : (i 0).val < 8 := (i 0).isLt
  have hi1 : (i 1).val < 128 := (i 1).isLt
  have hi2 : (i 2).val < 512 := (i 2).isLt
  have hN : cfg0.N = 8 := N_0
  refine ⟨⟨(i 0).val, by rw [hN]; exact hi0⟩, flush0_7 _, ?_⟩
  rw [termA_mem_block]
  obtain ⟨e0, e1, e2⟩ := termA_block_index ⟨(i 0).val, by rw [hN]; exact hi0⟩
  intro a
  match a with
  | ⟨0, _⟩ =>
    show win0_7.index _ 0 * 1 ≤ (i 0).val ∧ (i 0).val < win0_7.index _ 0 * 1 + 1
    rw [e0]; show (i 0).val * 1 ≤ (i 0).val ∧ (i 0).val < (i 0).val * 1 + 1; omega
  | ⟨1, _⟩ =>
    show win0_7.index _ 1 * 128 ≤ (i 1).val ∧ (i 1).val < win0_7.index _ 1 * 128 + 128
    rw [e1]; omega
  | ⟨2, _⟩ =>
    show win0_7.index _ 2 * 512 ≤ (i 2).val ∧ (i 2).val < win0_7.index _ 2 * 512 + 512
    rw [e2]; omega

/-- The array after the region. -/
theorem termA_final (c : Dev nD) : (dat0 V c).arrAt 7 cfg0.N = termA_arr V c :=
  (dat0 V c).arrAt_eq_of_cover 7 (termA_arr V c) (fun t _ => termA_flushed V c t) termA_cover

/-! ## Output window 8: the second output array -/

/-- The second output array, whole: at (b, n, k), node (b, n)'s features times column k of the seventh operand. -/
abbrev termB_arr (c : Dev nD) : S8x128x512.Idx → EReal := fun i =>
  Cert.Spec.proj (featAt V c (i 0) (i 1)) (V c main_v6) (i 2)

/-- The body's stored block over blocks that are batch b of the input and the whole weight arrays is batch b of the
    array above. -/
theorem termB_block (c : Dev nD) (b : Fin 8)
    (x0 : Vec Ideal S1x128x256 .bf16) (x1 : Vec Ideal S256x512 .bf16) (x2 : Vec Ideal S512 .f32)
    (x3 : Vec Ideal S512x512 .bf16) (x4 : Vec Ideal S512 .f32) (x5 : Vec Ideal S512x512 .bf16)
    (h0 : ∀ (n : Fin 128) (d : Fin 256), x0 (ix3 (0 : Fin 1) n d) = (V c main_v0 : S8x128x256.Idx → EReal) (ix3 b n d))
    (h1 : x1 = (V c main_v1 : S256x512.Idx → EReal)) (h2 : x2 = (V c main_arg2 : S512.Idx → EReal))
    (h3 : x3 = (V c main_v2 : S512x512.Idx → EReal)) (h4 : x4 = (V c main_arg4 : S512.Idx → EReal))
    (h5 : x5 = (V c main_v6 : S512x512.Idx → EReal))
    (y : S1x128x512.Idx) (i : S8x128x512.Idx)
    (hi0 : (i 0).val = b.val) (hi1 : (i 1).val = (y 1).val) (hi2 : (i 2).val = (y 2).val) :
    k0_pay1 (k0_pay4 x0 x1 x2 x3 x4 x5) y = termB_arr V c i := by
  subst h1 h2 h3 h4 h5
  obtain ⟨u, n, k, rfl⟩ : ∃ (u : Fin 1) (n : Fin 128) (k : Fin 512), y = ix3 u n k := ⟨y 0, y 1, y 2, eq_ix3 y⟩
  obtain rfl : i = ix3 b n k := by
    funext a
    apply Fin.ext
    match a with
    | ⟨0, _⟩ => exact hi0
    | ⟨1, _⟩ => exact hi1
    | ⟨2, _⟩ => exact hi2
  rw [storeB_apply, show (fun d => x0 (ix3 (0 : Fin 1) n d)) = fun d => (V c main_v0 : S8x128x256.Idx → EReal) (ix3 b n d) from funext (h0 n)]
  rfl

/-- What point t writes back is block t of the array above. -/
theorem termB_flushed (c : Dev nD) (t : Fin cfg0.N) :
    (dat0 V c).flushed 8 t = ((cfg0.win 8).blk t).view.read (Elt Ideal) (termB_arr V c) := by
  show (cfg0.win 8).cut (grid0.coords t) ((dat0 V c).after 8 t) = _
  rw [after0_8]
  unfold out0_8
  rw [View.canon_unit_zero hz3]
  simp only [View.ld_unit_zero (S := S1x128x256) hz3, View.ld_unit_zero (S := S256x512) hz2, View.ld_unit_zero (S := S512) hz1, View.ld_unit_zero (S := S512x512) hz2]
  obtain ⟨e0, e1, e2⟩ := termB_block_index t
  have ht : t.val < 8 := Nat.lt_of_lt_of_eq t.isLt N_0
  funext j
  refine termB_block V c ⟨t.val, ht⟩ (iblk0 V c 0 t) (iblk0 V c 1 t) (iblk0 V c 2 t) (iblk0 V c 3 t) (iblk0 V c 4 t) (iblk0 V c 6 t)
    (fun n d => input_block_apply V c t _ _ ?_ rfl rfl) (weight1_block_eq V c t) (bias1_block_eq V c t) (weight2_block_eq V c t) (bias2_block_eq V c t) (weightB_block_eq V c t)
    j (((cfg0.win 8).blk t).view.emb j) ?_ ?_ ?_
  · show t.val = t.val + 0
    omega
  · show win0_8.index t 0 * 1 + 1 * (j 0).val = t.val
    have hj : (j 0).val < 1 := (j 0).isLt
    rw [e0]; omega
  · show win0_8.index t 1 * 128 + 1 * (j 1).val = (j 1).val
    rw [e1]; omega
  · show win0_8.index t 2 * 512 + 1 * (j 2).val = (j 2).val
    rw [e2]; omega

/-- An index of the array is in point t's block iff each coordinate is in the block's range on its axis. -/
theorem termB_mem_block (t : Fin cfg0.N) (i : S8x128x512.Idx) :
    i ∈ ((cfg0.win 8).blk t).view.set ↔ ∀ a : Fin 3, win0_8.index t a * S1x128x512.size a ≤ (i a).val ∧ (i a).val < win0_8.index t a * S1x128x512.size a + S1x128x512.size a := by
  show i ∈ ((View.whole main_v7_1).slice (win0_8.rect t)).set ↔ _
  rw [View.set_slice_whole, Rect.mem_set_unit]
  exact Iff.rfl

/-- The eight blocks tile the array: the point that covers batch b is b. -/
theorem termB_cover (i : S8x128x512.Idx) :
    ∃ t : Fin cfg0.N, (cfg0.win 8).flush t = true ∧ i ∈ ((cfg0.win 8).blk t).view.set := by
  have hi0 : (i 0).val < 8 := (i 0).isLt
  have hi1 : (i 1).val < 128 := (i 1).isLt
  have hi2 : (i 2).val < 512 := (i 2).isLt
  have hN : cfg0.N = 8 := N_0
  refine ⟨⟨(i 0).val, by rw [hN]; exact hi0⟩, flush0_8 _, ?_⟩
  rw [termB_mem_block]
  obtain ⟨e0, e1, e2⟩ := termB_block_index ⟨(i 0).val, by rw [hN]; exact hi0⟩
  intro a
  match a with
  | ⟨0, _⟩ =>
    show win0_8.index _ 0 * 1 ≤ (i 0).val ∧ (i 0).val < win0_8.index _ 0 * 1 + 1
    rw [e0]; show (i 0).val * 1 ≤ (i 0).val ∧ (i 0).val < (i 0).val * 1 + 1; omega
  | ⟨1, _⟩ =>
    show win0_8.index _ 1 * 128 ≤ (i 1).val ∧ (i 1).val < win0_8.index _ 1 * 128 + 128
    rw [e1]; omega
  | ⟨2, _⟩ =>
    show win0_8.index _ 2 * 512 ≤ (i 2).val ∧ (i 2).val < win0_8.index _ 2 * 512 + 512
    rw [e2]; omega

/-- The array after the region. -/
theorem termB_final (c : Dev nD) : (dat0 V c).arrAt 8 cfg0.N = termB_arr V c :=
  (dat0 V c).arrAt_eq_of_cover 8 (termB_arr V c) (fun t _ => termB_flushed V c t) termB_cover

/-- After the first region its first output array holds, at (b, n, k), node (b, n)'s features times column k of the
    sixth operand. -/
theorem termA_apply (c : Dev nD) (b : Fin 8) (n : Fin 128) (k : Fin 512) :
    ((dat0 (F := Ideal) V c).arrAt 7 cfg0.N : S8x128x512.Idx → EReal) (ix3 b n k)
      = Cert.Spec.proj (featAt V c b n) (V c main_v4) k :=
  congrFun (termA_final V c) (ix3 b n k)

/-- After the first region its second output array holds, at (b, n, k), node (b, n)'s features times column k of the
    seventh operand. -/
theorem termB_apply (c : Dev nD) (b : Fin 8) (n : Fin 128) (k : Fin 512) :
    ((dat0 (F := Ideal) V c).arrAt 8 cfg0.N : S8x128x512.Idx → EReal) (ix3 b n k)
      = Cert.Spec.proj (featAt V c b n) (V c main_v6) k :=
  congrFun (termB_final V c) (ix3 b n k)

end Cert.KernelIdeal.NodeValue

end
-- ==== Proof.EdgeValue.lean ====
/-
  The edge kernel's output as a whole array.  Grid point (b, t) of the second pallas_call reads batch b of the first
  per-node term (all 128 nodes j), rows 16 t … 16 t + 15 of batch b of the second per-node term (nodes i), and the
  resident weights, and writes block (b, t) of the result: for each of its 16 × 128 edges (i, j) the rectified sum of
  the two terms and the bias, two more rectified dense layers, and the affine map to two values.  The 64 blocks tile
  the result array.
-/
import proofs.«152844_j21406117003470_1_alg».proof.Proof.Gen.KernelIdeal.Frame
import proofs.«152844_j21406117003470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Row (b, n) of a per-node term array as the second region finds it. -/
abbrev rowOf (A : S8x128x512.Idx → EReal) (b : Fin 8) (n : Fin 128) : Fin 512 → EReal := fun k => A (ix3 b n k)

/-! ## Layout operations of the edge body read at an index -/

section Layout
variable {α : Type}

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a]` array cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * a + k.val
    simp only [hu, hu', Nat.zero_mul, Nat.zero_add])

/-- An `[a, b, c]` array flattened to `[a * b, c]` reads, at row `r = b·i + j`, the operand at `(i, j, ·)`. -/
theorem shapeCast_abc_flat_apply {a b c n : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array with `n = a * b` rows viewed `[a, b, c]` reads, at `(i, j, k)`, the operand's row `b·i + j`. -/
theorem shapeCast_flat_abc_apply {a b c n : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- An `[a, 1, c]` array broadcast to `[a, b, c]` reads, at `(i, j, k)`, the operand at `(i, 0, k)`. -/
theorem broadcastTo_a1c_abc_apply {a b c : ℕ} (hc : c ≠ 1) (ha : a ≠ 1) (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => show i.val = if a = 1 then 0 else i.val; rw [if_neg ha]
  | ⟨1, _⟩ => rfl
  | ⟨2, _⟩ => show k.val = if c = 1 then 0 else k.val; rw [if_neg hc]

/-- A `[1, b, c]` array broadcast to `[a, b, c]` reads, at `(i, j, k)`, the operand at `(0, j, k)`. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => show j.val = if b = 1 then 0 else j.val; rw [if_neg hb]
  | ⟨2, _⟩ => show k.val = if c = 1 then 0 else k.val; rw [if_neg hc]

/-- A `[1, 1, c]` array broadcast to `[a, b, c]` reads, at `(i, j, k)`, the operand at `(0, 0, k)`. -/
theorem broadcastTo_11c_abc_apply {a b c : ℕ} (hc : c ≠ 1) (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ => show k.val = if c = 1 then 0 else k.val; rw [if_neg hc]

end Layout

/-! ## The body's two matrix products read at an index -/

theorem lhsA_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhsA_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhsA_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhsA_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The 2048 × 512 by 512 × 512 product with a zero accumulator, at `(r, n)`: row `r` against column `n`. -/
theorem matmulA_apply (X : FVec Ideal S2048x512 .bf16) (W : FVec Ideal S512x512 .bf16) (r : Fin 2048) (n : Fin 512) :
    matmul dot_S2048x512_S512x512_S2048x512_1_0_0_1_n_n none X W (constant (F := Ideal) S2048x512 .f32 0x00000000#32) (ix2 r n)
      = Cert.Spec.proj (fun k => X (ix2 r k)) W n := by
  unfold Cert.Spec.proj
  refine (Ideal.matmul_constant_zero_apply dot_S2048x512_S512x512_S2048x512_1_0_0_1_n_n none X W (ix2 r n)).trans ?_
  rw [← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 r n) ((ValueIdx.contrEquiv1 dot_S2048x512_S512x512_S2048x512_1_0_0_1_n_n 512 rfl rfl).symm k) = ix2 r k := funext fun a => Fin.ext (by
    match a with
    | ⟨0, _⟩ => exact lhsA_0 _ _
    | ⟨1, _⟩ => exact (lhsA_1 _ _).trans hk)
  have er : dot_S2048x512_S512x512_S2048x512_1_0_0_1_n_n.rhsIdx (ix2 r n) ((ValueIdx.contrEquiv1 dot_S2048x512_S512x512_S2048x512_1_0_0_1_n_n 512 rfl rfl).symm k) = ix2 k n := funext fun a => Fin.ext (by
    match a with
    | ⟨0, _⟩ => exact (rhsA_0 _ _).trans hk
    | ⟨1, _⟩ => exact rhsA_1 _ _)
  rw [el, er]

theorem lhsB_0 (i : S2048x2.Idx) (q : dot_S2048x512_S512x2_S2048x2_1_0_0_1_n_n.contr.Idx) :
    (dot_S2048x512_S512x2_S2048x2_1_0_0_1_n_n.lhsIdx i q 0).val = (i 0).val := by
  unfold DotDims.lhsIdx
  rw [dif_neg (show ¬(0 : Fin S2048x512.rank) ∈ dot_S2048x512_S512x2_S2048x2_1_0_0_1_n_n.lhsBatch by decide), dif_pos (show (0 : Fin S2048x512.rank) ∈ dot_S2048x512_S512x2_S2048x2_1_0_0_1_n_n.lhsNonContracting by decide)]
  rfl
theorem lhsB_1 (i : S2048x2.Idx) (q : dot_S2048x512_S512x2_S2048x2_1_0_0_1_n_n.contr.Idx) :
    (dot_S2048x512_S512x2_S2048x2_1_0_0_1_n_n.lhsIdx i q 1).val = (q ⟨0, by decide⟩).val :=
  dot_S2048x512_S512x2_S2048x2_1_0_0_1_n_n.lhsIdx_val_of_single rfl i q
theorem rhsB_0 (i : S2048x2.Idx) (q : dot_S2048x512_S512x2_S2048x2_1_0_0_1_n_n.contr.Idx) :
    (dot_S2048x512_S512x2_S2048x2_1_0_0_1_n_n.rhsIdx i q 0).val = (q ⟨0, by decide⟩).val :=
  dot_S2048x512_S512x2_S2048x2_1_0_0_1_n_n.rhsIdx_val_of_single rfl i q
theorem rhsB_1 (i : S2048x2.Idx) (q : dot_S2048x512_S512x2_S2048x2_1_0_0_1_n_n.contr.Idx) :
    (dot_S2048x512_S512x2_S2048x2_1_0_0_1_n_n.rhsIdx i q 1).val = (i 1).val := by
  unfold DotDims.rhsIdx
  rw [dif_neg (show ¬(1 : Fin S512x2.rank) ∈ dot_S2048x512_S512x2_S2048x2_1_0_0_1_n_n.rhsBatch by decide), dif_pos (show (1 : Fin S512x2.rank) ∈ dot_S2048x512_S512x2_S2048x2_1_0_0_1_n_n.rhsNonContracting by decide)]
  rfl

/-- The 2048 × 512 by 512 × 2 product with a zero accumulator, at `(r, o)`. -/
theorem matmulB_apply (X : FVec Ideal S2048x512 .bf16) (W : FVec Ideal S512x2 .bf16) (r : Fin 2048) (o : Fin 2) :
    matmul dot_S2048x512_S512x2_S2048x2_1_0_0_1_n_n none X W (constant (F := Ideal) S2048x2 .f32 0x00000000#32) (ix2 r o)
      = Cert.Spec.proj (fun k => X (ix2 r k)) W o := by
  unfold Cert.Spec.proj
  refine (Ideal.matmul_constant_zero_apply dot_S2048x512_S512x2_S2048x2_1_0_0_1_n_n none X W (ix2 r o)).trans ?_
  rw [← Equiv.sum_comp (ValueIdx.contrEquiv1 dot_S2048x512_S512x2_S2048x2_1_0_0_1_n_n 512 rfl rfl).symm]
  refine Finset.sum_congr rfl fun k _ => ?_
  have hk := ValueIdx.contrEquiv1_symm_val dot_S2048x512_S512x2_S2048x2_1_0_0_1_n_n 512 rfl rfl k
  have el : dot_S2048x512_S512x2_S2048x2_1_0_0_1_n_n.lhsIdx (ix2 r o) ((ValueIdx.contrEquiv1 dot_S2048x512_S512x2_S2048x2_1_0_0_1_n_n 512 rfl rfl).symm k) = ix2 r k := funext fun a => Fin.ext (by
    match a with
    | ⟨0, _⟩ => exact lhsB_0 _ _
    | ⟨1, _⟩ => exact (lhsB_1 _ _).trans hk)
  have er : dot_S2048x512_S512x2_S2048x2_1_0_0_1_n_n.rhsIdx (ix2 r o) ((ValueIdx.contrEquiv1 dot_S2048x512_S512x2_S2048x2_1_0_0_1_n_n 512 rfl rfl).symm k) = ix2 k o := funext fun a => Fin.ext (by
    match a with
    | ⟨0, _⟩ => exact (rhsB_0 _ _).trans hk
    | ⟨1, _⟩ => exact rhsB_1 _ _)
  rw [el, er]

/-! ## The body's stages on the 2048 flattened edges of a block -/

/-- A rectified dense layer on the rows of a 2048 × 512 array, at `(r, n)`: the layer of row `r`. -/
theorem dense_apply (X : FVec Ideal S2048x512 .bf16) (W : FVec Ideal S512x512 .bf16) (b : FVec Ideal S512 .f32)
    (hW : S512x512.ShapeCasts S512x512) (hb : S512.ShapeCasts S1x512) (hB : S1x512.Broadcasts S2048x512)
    (hlt : FTy.bits .bf16 < FTy.bits .f32) (r : Fin 2048) (n : Fin 512) :
    (truncf .bf16 (maximumf (addf (matmul dot_S2048x512_S512x512_S2048x512_1_0_0_1_n_n none X (shapeCast S512x512 W hW)
          (constant (F := Ideal) S2048x512 .f32 0x00000000#32))
        (broadcastTo S2048x512 (shapeCast S1x512 b hb) hB))
      (broadcast S2048x512 (Scalar.ofBits (F := Ideal) .f32 0x00000000#32))) hlt : FVec Ideal S2048x512 .bf16) (ix2 r n)
      = Cert.Spec.layer (fun k => X (ix2 r k)) W b n := by
  rw [truncf_apply, maximumf_apply, addf_apply, broadcast_apply, shapeCast_self, matmulA_apply,
    broadcastTo_1b_ab_apply, shapeCast_a_1a_apply]
  unfold Cert.Spec.layer Cert.Spec.lin
  show max _ (Ideal.ofBits .f32 0x00000000#32) = _
  rw [Ideal.ofBits_zero_f32]

/-- The affine map to two values on the rows of a 2048 × 512 array, at `(r, o)`. -/
theorem affine_apply (X : FVec Ideal S2048x512 .bf16) (W : FVec Ideal S512x2 .bf16) (b : FVec Ideal S2 .f32)
    (hW : S512x2.ShapeCasts S512x2) (hb : S2.ShapeCasts S1x2) (hB : S1x2.Broadcasts S2048x2) (r : Fin 2048) (o : Fin 2) :
    (addf (matmul dot_S2048x512_S512x2_S2048x2_1_0_0_1_n_n none X (shapeCast S512x2 W hW)
          (constant (F := Ideal) S2048x2 .f32 0x00000000#32))
        (broadcastTo S2048x2 (shapeCast S1x2 b hb) hB) : FVec Ideal S2048x2 .f32) (ix2 r o)
      = Cert.Spec.lin (fun k => X (ix2 r k)) W b o := by
  rw [addf_apply, shapeCast_self, matmulB_apply, broadcastTo_1b_ab_apply, shapeCast_a_1a_apply]
  rfl

/-- The first hidden row of edge `(i, j)` of a block: the rectified sum of node `i`'s term, node `j`'s term and the
    bias, at flattened row `128 i + j`. -/
theorem hidden_apply (v0 : FVec Ideal S1x128x512 .f32) (v2 : FVec Ideal S1x16x512 .f32) (v9 : FVec Ideal S512 .f32)
    (h1 : S1x128x512.ShapeCasts S128x512) (h3 : S1x16x512.ShapeCasts S16x512) (h4 : S16x512.ShapeCasts S16x1x512)
    (h5 : S128x512.ShapeCasts S1x128x512) (h6 : S16x1x512.Broadcasts S16x128x512) (h7 : S1x128x512.Broadcasts S16x128x512)
    (h10 : S512.ShapeCasts S1x1x512) (h11 : S1x1x512.Broadcasts S16x128x512) (h15 : S16x128x512.ShapeCasts S2048x512)
    (hlt : FTy.bits .bf16 < FTy.bits .f32) (r : Fin 2048) (i : Fin 16) (j : Fin 128) (k : Fin 512)
    (hr : r.val = i.val * 128 + j.val) :
    (truncf .bf16 (shapeCast S2048x512 (maximumf (addf (addf
            (broadcastTo S16x128x512 (shapeCast S16x1x512 (shapeCast S16x512 v2 h3) h4) h6)
            (broadcastTo S16x128x512 (shapeCast S1x128x512 (shapeCast S128x512 v0 h1) h5) h7))
          (broadcastTo S16x128x512 (shapeCast S1x1x512 v9 h10) h11))
        (broadcast S16x128x512 (Scalar.ofBits (F := Ideal) .f32 0x00000000#32))) h15) hlt : FVec Ideal S2048x512 .bf16) (ix2 r k)
      = Cert.Spec.hidden (fun k => v0 (ix3 (0 : Fin 1) j k)) (fun k => v2 (ix3 (0 : Fin 1) i k)) v9 k := by
  rw [truncf_apply, shapeCast_abc_flat_apply _ h15 r i j k hr, maximumf_apply, addf_apply, addf_apply, broadcast_apply,
    broadcastTo_a1c_abc_apply (by decide) (by decide), shapeCast_ab_a1b_apply, shapeCast_1ab_ab_apply,
    broadcastTo_1bc_abc_apply (by decide) (by decide), shapeCast_ab_1ab_apply, shapeCast_1ab_ab_apply,
    broadcastTo_11c_abc_apply (by decide), shapeCast_a_11a_apply]
  unfold Cert.Spec.hidden
  show max _ (Ideal.ofBits .f32 0x00000000#32) = _
  rw [Ideal.ofBits_zero_f32]

/-! ## The body's payload at an index -/

/-- What the body stores at `(0, i, j, o)` of its block: the edge head of row `j` of the first per-node block and row `i`
    of the second. The 16 × 128 edges are flattened to 2048 rows, edge `(i, j)` at row `128 i + j`. -/
theorem pay_apply (v0 : FVec Ideal S1x128x512 .f32) (v2 : FVec Ideal S1x16x512 .f32) (v9 : FVec Ideal S512 .f32)
    (v17 : FVec Ideal S512x512 .bf16) (v20 : FVec Ideal S512 .f32) (v27 : FVec Ideal S512x512 .bf16) (v30 : FVec Ideal S512 .f32)
    (v37 : FVec Ideal S512x2 .bf16) (v40 : FVec Ideal S2 .f32) (i : Fin 16) (j : Fin 128) (o : Fin 2) :
    (k1_pay1 (F := Ideal) (k1_pay2 (F := Ideal) v0 v2 v9 v17 v20 v27 v30) v37 v40) (ix4 (0 : Fin 1) i j o)
      = Cert.Spec.head (Cert.Spec.hidden (fun k => v0 (ix3 (0 : Fin 1) j k)) (fun k => v2 (ix3 (0 : Fin 1) i k)) v9)
          v17 v20 v27 v30 v37 v40 o := by
  have hlt : i.val * 128 + j.val < 2048 := by omega
  unfold k1_pay1
  rw [shapeCast_abc_1abc_apply, shapeCast_flat_abc_apply _ _ (⟨i.val * 128 + j.val, hlt⟩ : Fin 2048) i j o rfl, affine_apply]
  unfold Cert.Spec.head
  refine congrArg (fun h => Cert.Spec.lin h v37 v40 o) (funext fun n => ?_)
  unfold k1_pay2
  rw [dense_apply]
  refine congrArg (fun h => Cert.Spec.layer h v27 v30 n) (funext fun n' => ?_)
  rw [dense_apply]
  refine congrArg (fun h => Cert.Spec.layer h v17 v20 n') (funext fun k => ?_)
  exact hidden_apply v0 v2 v9 _ _ _ _ _ _ _ _ _ _ _ i j k rfl

/-! ## From blocks to the array -/

theorem hz1 : (![0] : Fin 1 → Nat) = fun _ => 0 := funext fun a => match a with | ⟨0, _⟩ => rfl
theorem hz2 : (![0, 0] : Fin 2 → Nat) = fun _ => 0 := funext fun a => match a with | ⟨0, _⟩ => rfl | ⟨1, _⟩ => rfl
theorem hz3 : (![0, 0, 0] : Fin 3 → Nat) = fun _ => 0 :=
  funext fun a => match a with | ⟨0, _⟩ => rfl | ⟨1, _⟩ => rfl | ⟨2, _⟩ => rfl
theorem hz4 : (![0, 0, 0, 0] : Fin 4 → Nat) = fun _ => 0 :=
  funext fun a => match a with | ⟨0, _⟩ => rfl | ⟨1, _⟩ => rfl | ⟨2, _⟩ => rfl | ⟨3, _⟩ => rfl

/-- The result array as one function of the region-entry arrays: at `(b, i, j, o)` the edge head of rows `(b, j)` and
    `(b, i)` of the two per-node terms. -/
abbrev edgeOut (c : Dev nD) : S8x128x128x2.Idx → EReal := fun x =>
  Cert.Spec.head (Cert.Spec.hidden (rowOf (V c main_v7_0) (x 0) (x 2)) (rowOf (V c main_v7_1) (x 0) (x 1)) (V c main_arg6))
    (V c main_v8) (V c main_arg8) (V c main_v9) (V c main_arg10) (V c main_v10) (V c main_arg12) (x 3)

/-- The index maps over the 64 grid points: point `t` is batch `t / 8`, row block `t % 8`; the first per-node term's
    block is the whole batch, the second's and the result's are the row block, the weights' the whole arrays. -/
theorem idx_facts : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = t.val % 8 ∧ win1_1.index t (2 : Fin 3) = 0
    ∧ win1_9.index t (0 : Fin 4) = t.val / 8 ∧ win1_9.index t (1 : Fin 4) = t.val % 8
    ∧ win1_9.index t (2 : Fin 4) = 0 ∧ win1_9.index t (3 : Fin 4) = 0 :=
  (by decide +kernel : ∀ t : Fin grid1.N, _)

/-- The resident operands' index maps are zero at every point. -/
theorem idx_zero : ∀ t : Fin cfg1.N,
    win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Point `t`'s block of the first per-node term is batch `t / 8` of it, whole. -/
theorem blk0_apply (c : Dev nD) (t : Fin cfg1.N) (b : Fin 8) (hb : b.val = t.val / 8) (j : Fin 128) (k : Fin 512) :
    (iblk1 (F := Ideal) V c 0 t : S1x128x512.Idx → EReal) (ix3 (0 : Fin 1) j k)
      = (V c main_v7_0 : S8x128x512.Idx → EReal) (ix3 b j k) := by
  obtain ⟨e0, e1, e2, -⟩ := idx_facts t
  unfold iblk1
  show (V c main_v7_0 : S8x128x512.Idx → EReal) (((cfg1.win 0).blk t).view.emb (ix3 (0 : Fin 1) j k)) = _
  congr 1
  funext a
  apply Fin.ext
  match a with
  | ⟨0, _⟩ => show win1_0.index t (0 : Fin 3) * 1 + 1 * 0 = b.val; omega
  | ⟨1, _⟩ => show win1_0.index t (1 : Fin 3) * 128 + 1 * j.val = j.val; omega
  | ⟨2, _⟩ => show win1_0.index t (2 : Fin 3) * 512 + 1 * k.val = k.val; omega

/-- Point `t`'s block of the second per-node term is rows `16 (t % 8) … 16 (t % 8) + 15` of batch `t / 8`. -/
theorem blk1_apply (c : Dev nD) (t : Fin cfg1.N) (b : Fin 8) (hb : b.val = t.val / 8) (i : Fin 16) (n : Fin 128)
    (hn : n.val = 16 * (t.val % 8) + i.val) (k : Fin 512) :
    (iblk1 (F := Ideal) V c 1 t : S1x16x512.Idx → EReal) (ix3 (0 : Fin 1) i k)
      = (V c main_v7_1 : S8x128x512.Idx → EReal) (ix3 b n k) := by
  obtain ⟨-, -, -, e0, e1, e2, -⟩ := idx_facts t
  unfold iblk1
  show (V c main_v7_1 : S8x128x512.Idx → EReal) (((cfg1.win 1).blk t).view.emb (ix3 (0 : Fin 1) i k)) = _
  congr 1
  funext a
  apply Fin.ext
  match a with
  | ⟨0, _⟩ => show win1_1.index t (0 : Fin 3) * 1 + 1 * 0 = b.val; omega
  | ⟨1, _⟩ => show win1_1.index t (1 : Fin 3) * 16 + 1 * i.val = n.val; omega
  | ⟨2, _⟩ => show win1_1.index t (2 : Fin 3) * 512 + 1 * k.val = k.val; omega

/-- The resident operands' blocks are their arrays. -/
theorem blk2_eq (c : Dev nD) (t : Fin cfg1.N) :
    (iblk1 (F := Ideal) V c 2 t : S512.Idx → EReal) = (V c main_arg6 : S512.Idx → EReal) := by
  obtain ⟨e, -⟩ := idx_zero t
  unfold iblk1
  funext x
  show (V c main_arg6 : S512.Idx → EReal) (((cfg1.win 2).blk t).view.emb x) = _
  congr 1
  funext a
  apply Fin.ext
  match a with
  | ⟨0, _⟩ => show win1_2.index t (0 : Fin 1) * 512 + 1 * (x 0).val = (x 0).val; omega

theorem blk3_eq (c : Dev nD) (t : Fin cfg1.N) :
    (iblk1 (F := Ideal) V c 3 t : S512x512.Idx → EReal) = (V c main_v8 : S512x512.Idx → EReal) := by
  obtain ⟨-, e0, e1, -⟩ := idx_zero t
  unfold iblk1
  funext x
  show (V c main_v8 : S512x512.Idx → EReal) (((cfg1.win 3).blk t).view.emb x) = _
  congr 1
  funext a
  apply Fin.ext
  match a with
  | ⟨0, _⟩ => show win1_3.index t (0 : Fin 2) * 512 + 1 * (x 0).val = (x 0).val; omega
  | ⟨1, _⟩ => show win1_3.index t (1 : Fin 2) * 512 + 1 * (x 1).val = (x 1).val; omega

theorem blk4_eq (c : Dev nD) (t : Fin cfg1.N) :
    (iblk1 (F := Ideal) V c 4 t : S512.Idx → EReal) = (V c main_arg8 : S512.Idx → EReal) := by
  obtain ⟨-, -, -, e, -⟩ := idx_zero t
  unfold iblk1
  funext x
  show (V c main_arg8 : S512.Idx → EReal) (((cfg1.win 4).blk t).view.emb x) = _
  congr 1
  funext a
  apply Fin.ext
  match a with
  | ⟨0, _⟩ => show win1_4.index t (0 : Fin 1) * 512 + 1 * (x 0).val = (x 0).val; omega

theorem blk5_eq (c : Dev nD) (t : Fin cfg1.N) :
    (iblk1 (F := Ideal) V c 5 t : S512x512.Idx → EReal) = (V c main_v9 : S512x512.Idx → EReal) := by
  obtain ⟨-, -, -, -, e0, e1, -⟩ := idx_zero t
  unfold iblk1
  funext x
  show (V c main_v9 : S512x512.Idx → EReal) (((cfg1.win 5).blk t).view.emb x) = _
  congr 1
  funext a
  apply Fin.ext
  match a with
  | ⟨0, _⟩ => show win1_5.index t (0 : Fin 2) * 512 + 1 * (x 0).val = (x 0).val; omega
  | ⟨1, _⟩ => show win1_5.index t (1 : Fin 2) * 512 + 1 * (x 1).val = (x 1).val; omega

theorem blk6_eq (c : Dev nD) (t : Fin cfg1.N) :
    (iblk1 (F := Ideal) V c 6 t : S512.Idx → EReal) = (V c main_arg10 : S512.Idx → EReal) := by
  obtain ⟨-, -, -, -, -, -, e, -⟩ := idx_zero t
  unfold iblk1
  funext x
  show (V c main_arg10 : S512.Idx → EReal) (((cfg1.win 6).blk t).view.emb x) = _
  congr 1
  funext a
  apply Fin.ext
  match a with
  | ⟨0, _⟩ => show win1_6.index t (0 : Fin 1) * 512 + 1 * (x 0).val = (x 0).val; omega

theorem blk7_eq (c : Dev nD) (t : Fin cfg1.N) :
    (iblk1 (F := Ideal) V c 7 t : S512x2.Idx → EReal) = (V c main_v10 : S512x2.Idx → EReal) := by
  obtain ⟨-, -, -, -, -, -, -, e0, e1, -⟩ := idx_zero t
  unfold iblk1
  funext x
  show (V c main_v10 : S512x2.Idx → EReal) (((cfg1.win 7).blk t).view.emb x) = _
  congr 1
  funext a
  apply Fin.ext
  match a with
  | ⟨0, _⟩ => show win1_7.index t (0 : Fin 2) * 512 + 1 * (x 0).val = (x 0).val; omega
  | ⟨1, _⟩ => show win1_7.index t (1 : Fin 2) * 2 + 1 * (x 1).val = (x 1).val; omega

theorem blk8_eq (c : Dev nD) (t : Fin cfg1.N) :
    (iblk1 (F := Ideal) V c 8 t : S2.Idx → EReal) = (V c main_arg12 : S2.Idx → EReal) := by
  obtain ⟨-, -, -, -, -, -, -, -, -, e⟩ := idx_zero t
  unfold iblk1
  funext x
  show (V c main_arg12 : S2.Idx → EReal) (((cfg1.win 8).blk t).view.emb x) = _
  congr 1
  funext a
  apply Fin.ext
  match a with
  | ⟨0, _⟩ => show win1_8.index t (0 : Fin 1) * 2 + 1 * (x 0).val = (x 0).val; omega

/-- The payload at an edge of a block whose inputs are the stated rows and arrays. -/
theorem point_apply (A0 A1 : S8x128x512.Idx → EReal) (B2 : Cert.Spec.Arr1 512) (B3 : Cert.Spec.Arr2 512 512)
    (B4 : Cert.Spec.Arr1 512) (B5 : Cert.Spec.Arr2 512 512) (B6 : Cert.Spec.Arr1 512) (B7 : Cert.Spec.Arr2 512 2)
    (B8 : Cert.Spec.Arr1 2)
    (X0 : FVec Ideal S1x128x512 .f32) (X1 : FVec Ideal S1x16x512 .f32) (X2 : FVec Ideal S512 .f32)
    (X3 : FVec Ideal S512x512 .bf16) (X4 : FVec Ideal S512 .f32) (X5 : FVec Ideal S512x512 .bf16) (X6 : FVec Ideal S512 .f32)
    (X7 : FVec Ideal S512x2 .bf16) (X8 : FVec Ideal S2 .f32)
    (b : Fin 8) (n : Fin 128) (i : Fin 16) (j : Fin 128) (o : Fin 2)
    (h0 : ∀ k, X0 (ix3 (0 : Fin 1) j k) = A0 (ix3 b j k)) (h1 : ∀ k, X1 (ix3 (0 : Fin 1) i k) = A1 (ix3 b n k))
    (h2 : X2 = B2) (h3 : X3 = B3) (h4 : X4 = B4) (h5 : X5 = B5) (h6 : X6 = B6) (h7 : X7 = B7) (h8 : X8 = B8) :
    (k1_pay1 (F := Ideal) (k1_pay2 (F := Ideal) X0 X1 X2 X3 X4 X5 X6) X7 X8) (ix4 (0 : Fin 1) i j o)
      = Cert.Spec.head (Cert.Spec.hidden (rowOf A0 b j) (rowOf A1 b n) B2) B3 B4 B5 B6 B7 B8 o := by
  subst h2 h3 h4 h5 h6 h7 h8
  rw [pay_apply]
  have e0 : (fun k => X0 (ix3 (0 : Fin 1) j k)) = rowOf A0 b j := funext h0
  have e1 : (fun k => X1 (ix3 (0 : Fin 1) i k)) = rowOf A1 b n := funext h1
  rw [e0, e1]

/-- WHAT POINT `t` WRITES BACK is block `t` of `edgeOut` of the arrays as the region finds them. -/
theorem flushed_eq (c : Dev nD) (t : Fin cfg1.N) :
    (dat1 (F := Ideal) V c).flushed 9 t = ((cfg1.win 9).blk t).view.read (Elt Ideal) (edgeOut V c) := by
  show (cfg1.win 9).cut (grid1.coords t) ((dat1 (F := Ideal) V c).after 9 t) = _
  rw [after1_9]
  unfold out1_9
  rw [View.canon_unit_zero hz4]
  simp only [View.ld_unit_zero (S := S1x128x512) hz3, View.ld_unit_zero (S := S1x16x512) hz3,
    View.ld_unit_zero (S := S512) hz1, View.ld_unit_zero (S := S512x512) hz2, View.ld_unit_zero (S := S512x2) hz2,
    View.ld_unit_zero (S := S2) hz1]
  obtain ⟨-, -, -, -, -, -, e0, e1, e2, e3⟩ := idx_facts t
  have hN : t.val < 64 := Nat.lt_of_lt_of_eq t.isLt N_1
  funext y
  have hy0 : (y 0).val < 1 := (y 0).isLt
  have hy1 : (y 1).val < 16 := (y 1).isLt
  have hy2 : (y 2).val < 128 := (y 2).isLt
  have hy3 : (y 3).val < 2 := (y 3).isLt
  obtain ⟨b, hb⟩ : ∃ b : Fin 8, b.val = t.val / 8 := ⟨⟨t.val / 8, by omega⟩, rfl⟩
  obtain ⟨n, hn⟩ : ∃ n : Fin 128, n.val = 16 * (t.val % 8) + (y 1).val := ⟨⟨16 * (t.val % 8) + (y 1).val, by omega⟩, rfl⟩
  obtain ⟨i, hi⟩ : ∃ i : Fin 16, i.val = (y 1).val := ⟨⟨(y 1).val, hy1⟩, rfl⟩
  obtain ⟨j, hj⟩ : ∃ j : Fin 128, j.val = (y 2).val := ⟨⟨(y 2).val, hy2⟩, rfl⟩
  obtain ⟨o, ho⟩ : ∃ o : Fin 2, o.val = (y 3).val := ⟨⟨(y 3).val, hy3⟩, rfl⟩
  have hidx : (cfg1.win 9).xinj (grid1.coords t) y = ix4 (0 : Fin 1) i j o := funext fun a => Fin.ext (by
    match a with
    | ⟨0, _⟩ => show (y 0).val = 0; omega
    | ⟨1, _⟩ => exact hi.symm
    | ⟨2, _⟩ => exact hj.symm
    | ⟨3, _⟩ => exact ho.symm)
  have hemb : ((cfg1.win 9).blk t).view.emb y = ix4 b n j o := funext fun a => Fin.ext (by
    match a with
    | ⟨0, _⟩ => show win1_9.index t (0 : Fin 4) * 1 + 1 * (y 0).val = b.val; omega
    | ⟨1, _⟩ => show win1_9.index t (1 : Fin 4) * 16 + 1 * (y 1).val = n.val; omega
    | ⟨2, _⟩ => show win1_9.index t (2 : Fin 4) * 128 + 1 * (y 2).val = j.val; omega
    | ⟨3, _⟩ => show win1_9.index t (3 : Fin 4) * 2 + 1 * (y 3).val = o.val; omega)
  show k1_pay1 (F := Ideal) _ _ _ ((cfg1.win 9).xinj (grid1.coords t) y) = edgeOut V c (((cfg1.win 9).blk t).view.emb y)
  rw [hidx, hemb]
  exact point_apply (V c main_v7_0) (V c main_v7_1) (V c main_arg6) (V c main_v8) (V c main_arg8) (V c main_v9)
    (V c main_arg10) (V c main_v10) (V c main_arg12)
    (iblk1 (F := Ideal) V c 0 t) (iblk1 (F := Ideal) V c 1 t) (iblk1 (F := Ideal) V c 2 t) (iblk1 (F := Ideal) V c 3 t)
    (iblk1 (F := Ideal) V c 4 t) (iblk1 (F := Ideal) V c 5 t) (iblk1 (F := Ideal) V c 6 t) (iblk1 (F := Ideal) V c 7 t)
    (iblk1 (F := Ideal) V c 8 t) b n i j o
    (blk0_apply V c t b hb j) (blk1_apply V c t b hb i n (by omega)) (blk2_eq V c t) (blk3_eq V c t) (blk4_eq V c t)
    (blk5_eq V c t) (blk6_eq V c t) (blk7_eq V c t) (blk8_eq V c t)

/-- An index of the result array is in point `t`'s block iff each coordinate is in the block's range on its axis. -/
theorem mem_blk (t : Fin cfg1.N) (x : S8x128x128x2.Idx) :
    x ∈ ((cfg1.win 9).blk t).view.set ↔ ∀ a : Fin 4, win1_9.index t a * S1x16x128x2.size a ≤ (x a).val
      ∧ (x a).val < win1_9.index t a * S1x16x128x2.size a + S1x16x128x2.size a := by
  show x ∈ ((View.whole main_v11).slice (win1_9.rect t)).set ↔ _
  rw [View.set_slice_whole, Rect.mem_set_unit]
  exact Iff.rfl

/-- The 64 blocks tile the result array: `(b, i, ·, ·)` is in the block of point `8 b + i / 16`. -/
theorem cover (x : S8x128x128x2.Idx) :
    ∃ t : Fin cfg1.N, (cfg1.win 9).flush t = true ∧ x ∈ ((cfg1.win 9).blk t).view.set := by
  have h0 : (x 0).val < 8 := (x 0).isLt
  have h1 : (x 1).val < 128 := (x 1).isLt
  have h2 : (x 2).val < 128 := (x 2).isLt
  have h3 : (x 3).val < 2 := (x 3).isLt
  obtain ⟨t, ht⟩ : ∃ t : Fin cfg1.N, t.val = 8 * (x 0).val + (x 1).val / 16 :=
    ⟨⟨8 * (x 0).val + (x 1).val / 16, by rw [show cfg1.N = 64 from N_1]; omega⟩, rfl⟩
  obtain ⟨-, -, -, -, -, -, e0, e1, e2, e3⟩ := idx_facts t
  refine ⟨t, flush1_9 t, ?_⟩
  rw [mem_blk]
  intro a
  match a with
  | ⟨0, _⟩ => show win1_9.index t (0 : Fin 4) * 1 ≤ (x 0).val ∧ (x 0).val < win1_9.index t (0 : Fin 4) * 1 + 1; omega
  | ⟨1, _⟩ => show win1_9.index t (1 : Fin 4) * 16 ≤ (x 1).val ∧ (x 1).val < win1_9.index t (1 : Fin 4) * 16 + 16; omega
  | ⟨2, _⟩ => show win1_9.index t (2 : Fin 4) * 128 ≤ (x 2).val ∧ (x 2).val < win1_9.index t (2 : Fin 4) * 128 + 128; omega
  | ⟨3, _⟩ => show win1_9.index t (3 : Fin 4) * 2 ≤ (x 3).val ∧ (x 3).val < win1_9.index t (3 : Fin 4) * 2 + 2; omega

/-- THE RESULT ARRAY after the region: `edgeOut` of the arrays as the region finds them. -/
theorem out_eq (c : Dev nD) : (dat1 (F := Ideal) V c).arrAt 9 cfg1.N = edgeOut V c :=
  (dat1 (F := Ideal) V c).arrAt_eq_of_cover 9 (edgeOut V c) (fun t _ => flushed_eq V c t) cover

/-- After the second region the result array holds, at (b, i, j, o), the edge head of the two per-node terms' rows
    (b, j) and (b, i). -/
theorem out_apply (c : Dev nD) (b : Fin 8) (i j : Fin 128) (o : Fin 2) :
    ((dat1 (F := Ideal) V c).arrAt 9 cfg1.N : S8x128x128x2.Idx → EReal) (ix4 b i j o)
      = Cert.Spec.head (Cert.Spec.hidden (rowOf (V c main_v7_0) b j) (rowOf (V c main_v7_1) b i) (V c main_arg6))
          (V c main_v8) (V c main_arg8) (V c main_v9) (V c main_arg10) (V c main_v10) (V c main_arg12) o := by
  rw [out_eq]

end Cert.KernelIdeal.EdgeValue

end
-- ==== Proof.Glue.lean ====
/-
  From the launch memory to the result array.  The kernel program is two regions among two stretches of host
  operations: the first stretch rounds the input and three weight matrices to sixteen bits (the identity on extended
  reals) and cuts the 1024-row matrix into its upper and lower halves; the first region forms the two per-node terms; the
  second stretch rounds three more weight matrices; the second region forms the result.  Reading each region's arrays
  back through the stretches, the result array at (b, i, j, o) is the specification's kernel arrangement `outK` of the
  thirteen argument arrays, with the two halves of the 1024-row matrix in the places of its two projections.
-/
import proofs.«152844_j21406117003470_1_alg».proof.Proof.Gen.KernelIdeal.Frame
import proofs.«152844_j21406117003470_1_alg».proof.Proof.Spec
import proofs.«152844_j21406117003470_1_alg».proof.Proof.NodeValue
import proofs.«152844_j21406117003470_1_alg».proof.Proof.EdgeValue
import Idealize.ShloMosaic.Lib.StableHlo.Run
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

/-! ## What each stretch of host operations leaves, at any contents it starts from -/

section Stretches

variable (W : Valuation τ sig (Elt Ideal))

theorem first_v0 : (StableHlo.after hostOps0 W (Proc.devRef .tc main_v0) : S8x128x256.Idx → EReal) = W (Proc.devRef .tc main_arg0) := by
  after_results
  rfl
theorem first_v1 : (StableHlo.after hostOps0 W (Proc.devRef .tc main_v1) : S256x512.Idx → EReal) = W (Proc.devRef .tc main_arg1) := by
  after_results
  rfl
theorem first_v2 : (StableHlo.after hostOps0 W (Proc.devRef .tc main_v2) : S512x512.Idx → EReal) = W (Proc.devRef .tc main_arg3) := by
  after_results
  rfl
theorem first_v4 : (StableHlo.after hostOps0 W (Proc.devRef .tc main_v4) : S512x512.Idx → EReal)
    = extractStridedSlice S512x512 ![0, 0] (W (Proc.devRef .tc main_arg5) : S1024x512.Idx → EReal) slices_S1024x512_S512x512_0_0 := by
  after_results
  rfl
theorem first_v6 : (StableHlo.after hostOps0 W (Proc.devRef .tc main_v6) : S512x512.Idx → EReal)
    = extractStridedSlice S512x512 ![512, 0] (W (Proc.devRef .tc main_arg5) : S1024x512.Idx → EReal) slices_S1024x512_S512x512_512_0 := by
  after_results
  rfl
theorem first_arg2 : StableHlo.after hostOps0 W (Proc.devRef .tc main_arg2) = W (Proc.devRef .tc main_arg2) := by
  after_results
theorem first_arg4 : StableHlo.after hostOps0 W (Proc.devRef .tc main_arg4) = W (Proc.devRef .tc main_arg4) := by
  after_results

theorem second_v8 : (StableHlo.after hostOps1 W (Proc.devRef .tc main_v8) : S512x512.Idx → EReal) = W (Proc.devRef .tc main_arg7) := by
  after_results
  rfl
theorem second_v9 : (StableHlo.after hostOps1 W (Proc.devRef .tc main_v9) : S512x512.Idx → EReal) = W (Proc.devRef .tc main_arg9) := by
  after_results
  rfl
theorem second_v10 : (StableHlo.after hostOps1 W (Proc.devRef .tc main_v10) : S512x2.Idx → EReal) = W (Proc.devRef .tc main_arg11) := by
  after_results
  rfl
theorem second_keep (b : Ref sig .tc) (h8 : b ≠ main_v8) (h9 : b ≠ main_v9) (h10 : b ≠ main_v10) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h8, StableHlo.devRef_ne_of_ne h9, StableHlo.devRef_ne_of_ne h10⟩))

end Stretches

/-! ## The two halves of the 1024-row matrix -/

theorem upper_half (X : S1024x512.Idx → EReal) :
    extractStridedSlice S512x512 ![0, 0] X slices_S1024x512_S512x512_0_0 = Cert.Spec.top X := by
  funext idx
  obtain ⟨p, q, rfl⟩ : ∃ (p : Fin 512) (q : Fin 512), idx = ix2 p q := ⟨idx 0, idx 1, eq_ix2 idx⟩
  refine (slice2_axis0_eq 0 X slices_S1024x512_S512x512_0_0 p q).trans ?_
  unfold Cert.Spec.top
  refine congrArg X (funext fun a => ?_)
  match a with
  | ⟨0, _⟩ => exact Fin.ext (Nat.zero_add _)
  | ⟨1, _⟩ => rfl

theorem lower_half (X : S1024x512.Idx → EReal) :
    extractStridedSlice S512x512 ![512, 0] X slices_S1024x512_S512x512_512_0 = Cert.Spec.bot X := by
  funext idx
  obtain ⟨p, q, rfl⟩ : ∃ (p : Fin 512) (q : Fin 512), idx = ix2 p q := ⟨idx 0, idx 1, eq_ix2 idx⟩
  refine (slice2_axis0_eq 512 X slices_S1024x512_S512x512_512_0 p q).trans ?_
  unfold Cert.Spec.bot
  refine congrArg X (funext fun a => ?_)
  match a with
  | ⟨0, _⟩ => rfl
  | ⟨1, _⟩ => rfl

/-! ## The result array -/

section Result

variable (m : (ℓ : Loc nD τ sig) → Buf (Elt Ideal) ℓ) (ρ : Dev nD → PrngReg)

/-! ### The first region's entry contents, from the launch memory -/

theorem entry_v0 (c : Dev nD) : (V1 m ρ c main_v0 : S8x128x256.Idx → EReal) = m ((c : Thread nD τ).loc main_arg0) := first_v0 (W0 m ρ c)
theorem entry_v1 (c : Dev nD) : (V1 m ρ c main_v1 : S256x512.Idx → EReal) = m ((c : Thread nD τ).loc main_arg1) := first_v1 (W0 m ρ c)
theorem entry_arg2 (c : Dev nD) : (V1 m ρ c main_arg2 : S512.Idx → EReal) = m ((c : Thread nD τ).loc main_arg2) := first_arg2 (W0 m ρ c)
theorem entry_v2 (c : Dev nD) : (V1 m ρ c main_v2 : S512x512.Idx → EReal) = m ((c : Thread nD τ).loc main_arg3) := first_v2 (W0 m ρ c)
theorem entry_arg4 (c : Dev nD) : (V1 m ρ c main_arg4 : S512.Idx → EReal) = m ((c : Thread nD τ).loc main_arg4) := first_arg4 (W0 m ρ c)
theorem entry_v4 (c : Dev nD) : (V1 m ρ c main_v4 : S512x512.Idx → EReal) = Cert.Spec.top (m ((c : Thread nD τ).loc main_arg5)) :=
  (first_v4 (W0 m ρ c)).trans (upper_half _)
theorem entry_v6 (c : Dev nD) : (V1 m ρ c main_v6 : S512x512.Idx → EReal) = Cert.Spec.bot (m ((c : Thread nD τ).loc main_arg5)) :=
  (first_v6 (W0 m ρ c)).trans (lower_half _)

/-- Row (b, n) of the first per-node term after the first region. -/
theorem termA_row (c : Dev nD) (b : Fin 8) (n : Fin 128) :
    Cert.KernelIdeal.EdgeValue.rowOf ((dat0 (F := Ideal) (V1 m ρ) c).arrAt 7 cfg0.N) b n
      = Cert.Spec.proj (Cert.Spec.feat (m ((c : Thread nD τ).loc main_arg0)) (m ((c : Thread nD τ).loc main_arg1)) (m ((c : Thread nD τ).loc main_arg2)) (m ((c : Thread nD τ).loc main_arg3)) (m ((c : Thread nD τ).loc main_arg4)) b n)
          (Cert.Spec.top (m ((c : Thread nD τ).loc main_arg5))) := by
  funext k
  refine (Cert.KernelIdeal.NodeValue.termA_apply (V1 m ρ) c b n k).trans ?_
  unfold Cert.KernelIdeal.NodeValue.featAt
  rw [entry_v0, entry_v1, entry_arg2, entry_v2, entry_arg4, entry_v4]

/-- Row (b, n) of the second per-node term after the first region. -/
theorem termB_row (c : Dev nD) (b : Fin 8) (n : Fin 128) :
    Cert.KernelIdeal.EdgeValue.rowOf ((dat0 (F := Ideal) (V1 m ρ) c).arrAt 8 cfg0.N) b n
      = Cert.Spec.proj (Cert.Spec.feat (m ((c : Thread nD τ).loc main_arg0)) (m ((c : Thread nD τ).loc main_arg1)) (m ((c : Thread nD τ).loc main_arg2)) (m ((c : Thread nD τ).loc main_arg3)) (m ((c : Thread nD τ).loc main_arg4)) b n)
          (Cert.Spec.bot (m ((c : Thread nD τ).loc main_arg5))) := by
  funext k
  refine (Cert.KernelIdeal.NodeValue.termB_apply (V1 m ρ) c b n k).trans ?_
  unfold Cert.KernelIdeal.NodeValue.featAt
  rw [entry_v0, entry_v1, entry_arg2, entry_v2, entry_arg4, entry_v6]

/-! ### The second region's entry contents -/

/-- An argument the second region does not stage, at that region's entry. -/
theorem mid_arg (c : Dev nD) (a : Ref sig .tc) (h : ∀ w, Pipeline.arrRef spec1 w ≠ a)
    (hend : W4 m ρ c (Proc.devRef .tc a) = m ((c : Thread nD τ).loc a)) :
    W3 m ρ c (Proc.devRef .tc a) = m ((c : Thread nD τ).loc a) :=
  (W4_of_ne m ρ c a h).symm.trans hend

theorem mid_arg6 (c : Dev nD) : (V3 m ρ c main_arg6 : S512.Idx → EReal) = m ((c : Thread nD τ).loc main_arg6) :=
  ((W4_arr m ρ c 2).trans (((dat1 (V3 m ρ) c).arrAt_in 2 rfl _).trans (A_eq1 (V3 m ρ) c 2))).symm.trans (W4_main_arg6 m ρ c)
theorem mid_arg8 (c : Dev nD) : (V3 m ρ c main_arg8 : S512.Idx → EReal) = m ((c : Thread nD τ).loc main_arg8) :=
  ((W4_arr m ρ c 4).trans (((dat1 (V3 m ρ) c).arrAt_in 4 rfl _).trans (A_eq1 (V3 m ρ) c 4))).symm.trans (W4_main_arg8 m ρ c)
theorem mid_arg10 (c : Dev nD) : (V3 m ρ c main_arg10 : S512.Idx → EReal) = m ((c : Thread nD τ).loc main_arg10) :=
  ((W4_arr m ρ c 6).trans (((dat1 (V3 m ρ) c).arrAt_in 6 rfl _).trans (A_eq1 (V3 m ρ) c 6))).symm.trans (W4_main_arg10 m ρ c)
theorem mid_arg12 (c : Dev nD) : (V3 m ρ c main_arg12 : S2.Idx → EReal) = m ((c : Thread nD τ).loc main_arg12) :=
  ((W4_arr m ρ c 8).trans (((dat1 (V3 m ρ) c).arrAt_in 8 rfl _).trans (A_eq1 (V3 m ρ) c 8))).symm.trans (W4_main_arg12 m ρ c)

/-- An argument the second stretch only reads, at the first region's exit. -/
theorem exit_arg (c : Dev nD) (a : Ref sig .tc) (h : ∀ w, Pipeline.arrRef spec1 w ≠ a)
    (h8 : a ≠ main_v8) (h9 : a ≠ main_v9) (h10 : a ≠ main_v10)
    (hend : W4 m ρ c (Proc.devRef .tc a) = m ((c : Thread nD τ).loc a)) :
    W2 m ρ c (Proc.devRef .tc a) = m ((c : Thread nD τ).loc a) :=
  (second_keep (W2 m ρ c) a h8 h9 h10).symm.trans (mid_arg m ρ c a h hend)

theorem mid_v8 (c : Dev nD) : (V3 m ρ c main_v8 : S512x512.Idx → EReal) = m ((c : Thread nD τ).loc main_arg7) :=
  (second_v8 (W2 m ρ c)).trans (exit_arg m ρ c main_arg7 (by decide) (by decide) (by decide) (by decide) (W4_main_arg7 m ρ c))
theorem mid_v9 (c : Dev nD) : (V3 m ρ c main_v9 : S512x512.Idx → EReal) = m ((c : Thread nD τ).loc main_arg9) :=
  (second_v9 (W2 m ρ c)).trans (exit_arg m ρ c main_arg9 (by decide) (by decide) (by decide) (by decide) (W4_main_arg9 m ρ c))
theorem mid_v10 (c : Dev nD) : (V3 m ρ c main_v10 : S512x2.Idx → EReal) = m ((c : Thread nD τ).loc main_arg11) :=
  (second_v10 (W2 m ρ c)).trans (exit_arg m ρ c main_arg11 (by decide) (by decide) (by decide) (by decide) (W4_main_arg11 m ρ c))

theorem mid_termA (c : Dev nD) : (V3 m ρ c main_v7_0 : S8x128x512.Idx → EReal) = (dat0 (F := Ideal) (V1 m ρ) c).arrAt 7 cfg0.N :=
  (second_keep (W2 m ρ c) main_v7_0 (by decide) (by decide) (by decide)).trans (W2_arr m ρ c 7)
theorem mid_termB (c : Dev nD) : (V3 m ρ c main_v7_1 : S8x128x512.Idx → EReal) = (dat0 (F := Ideal) (V1 m ρ) c).arrAt 8 cfg0.N :=
  (second_keep (W2 m ρ c) main_v7_1 (by decide) (by decide) (by decide)).trans (W2_arr m ρ c 8)

/-- The result array after the run, at (b, i, j, o), is the kernel arrangement of the argument arrays. -/
theorem result_apply (c : Dev nD) (b : Fin 8) (i j : Fin 128) (o : Fin 2) :
    (W4 m ρ c (Proc.devRef .tc main_v11) : S8x128x128x2.Idx → EReal) (ix4 b i j o)
      = Cert.Spec.outK (m ((c : Thread nD τ).loc main_arg0)) (m ((c : Thread nD τ).loc main_arg1)) (m ((c : Thread nD τ).loc main_arg2))
          (m ((c : Thread nD τ).loc main_arg3)) (m ((c : Thread nD τ).loc main_arg4))
          (Cert.Spec.top (m ((c : Thread nD τ).loc main_arg5))) (Cert.Spec.bot (m ((c : Thread nD τ).loc main_arg5)))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) b i j o := by
  have h9 : (W4 m ρ c (Proc.devRef .tc main_v11) : S8x128x128x2.Idx → EReal) = (dat1 (F := Ideal) (V3 m ρ) c).arrAt 9 cfg1.N :=
    W4_arr m ρ c 9
  rw [h9, Cert.KernelIdeal.EdgeValue.out_apply (V3 m ρ) c b i j o, mid_termA, mid_termB, mid_arg6, mid_v8, mid_arg8, mid_v9,
    mid_arg10, mid_v10, mid_arg12, termA_row, termB_row]
  rfl

end Result

end Cert.KernelIdeal.Glue

end
-- ==== Proof.RefSpec.lean ====
/-
  The reference read at an element.  The reference flattens the batch and node axes, applies the two node layers to all
  1024 rows, lays the features out twice over the 128 × 128 edges of each batch (once varying with j, once with i),
  concatenates them along the feature axis, flattens the 131072 edges, and applies the three rectified dense layers and
  the final affine map.  Read at (b, i, j, o), with the flattened row 16384 b + 128 i + j taken apart again, it is the
  specification's `outR`.
-/
import proofs.«152844_j21406117003470_1_alg».proof.Proof.Gen.ReferenceIdeal.Run
import proofs.«152844_j21406117003470_1_alg».proof.Proof.Gen.ReferenceIdeal.Read
import proofs.«152844_j21406117003470_1_alg».proof.Proof.Spec
import Idealize.ShloMosaic.Lib.Pipeline.Value
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.TcCoe Idealize.SL.Sem
open Idealize.ShloMosaic.ValueIdx

/-- Row (b, n) of the 1024 flattened node rows. -/
abbrev nrow (b : Fin 8) (n : Fin 128) : Fin 1024 := ⟨128 * b.val + n.val, by have := b.isLt; have := n.isLt; omega⟩

/-- Row (b, i, j) of the 131072 flattened edge rows. -/
abbrev erow (b : Fin 8) (i j : Fin 128) : Fin 131072 :=
  ⟨16384 * b.val + 128 * i.val + j.val, by have := b.isLt; have := i.isLt; have := j.isLt; omega⟩

/-- The first node layer at row (b, n): the flattened row 128 b + n is row (b, n) of the input. -/
theorem node1 (x0 : S8x128x256.Idx → EReal) (x1 : S256x512.Idx → EReal) (x2 : S512.Idx → EReal)
    (b : Fin 8) (n : Fin 128) (k : Fin 512) :
    val_main_v5 (F := Ideal) x0 x1 x2 (ix2 (nrow b n) k)
      = Cert.Spec.layer (fun d => x0 (ix3 b n d)) x1 x2 k := by
  have hl : ∀ q : Fin 256, idx_main_v0 (lidx_main_v1 (ix2 (nrow b n) k) q) = ix3 b n q := fun q =>
    funext fun a => Fin.ext (by
      have hb := b.isLt; have hn := n.isLt; have hq := q.isLt
      match a with
      | ⟨0, _⟩ => show ((128 * b.val + n.val) * 256 + q.val) / 32768 = b.val; omega
      | ⟨1, _⟩ => show ((128 * b.val + n.val) * 256 + q.val) / 256 % 128 = n.val; omega
      | ⟨2, _⟩ => show ((128 * b.val + n.val) * 256 + q.val) % 256 = q.val; omega)
  have hr : ∀ q : Fin 256, ridx_main_v1 (ix2 (nrow b n) k) q = ix2 q k := fun q =>
    funext fun a => Fin.ext (by
      match a with
      | ⟨0, _⟩ => rfl
      | ⟨1, _⟩ => rfl)
  have hc : idx_main_v2 (idx_main_v3 (ix2 (nrow b n) k)) = ix1 k :=
    funext fun a => Fin.ext (by
      match a with
      | ⟨0, _⟩ => rfl)
  rw [val_main_v5_apply, val_main_v4_apply, val_main_v1_apply, val_main_v3_apply, val_main_v2_apply,
    val_main_call0_v0_apply, val_main_call0_cst_apply]
  simp only [val_main_v0_apply, hl, hr, hc, Ideal.maximumf_def, Ideal.addf_def]
  unfold Cert.Spec.layer Cert.Spec.lin Cert.Spec.proj
  exact congrArg (max _) Ideal.ofBits_zero_f32

/-- The second node layer at row (b, n): the features of node n of batch b. -/
theorem node2 (x0 : S8x128x256.Idx → EReal) (x1 : S256x512.Idx → EReal) (x2 : S512.Idx → EReal) (x3 : S512x512.Idx → EReal)
    (x4 : S512.Idx → EReal)
    (b : Fin 8) (n : Fin 128) (k : Fin 512) :
    val_main_v10 (F := Ideal) x0 x1 x2 x3 x4 (ix2 (nrow b n) k) = Cert.Spec.feat x0 x1 x2 x3 x4 b n k := by
  have hl : ∀ q : Fin 512, lidx_main_v6 (ix2 (nrow b n) k) q = ix2 (nrow b n) q := fun q =>
    funext fun a => Fin.ext (by
      match a with
      | ⟨0, _⟩ => rfl
      | ⟨1, _⟩ => rfl)
  have hr : ∀ q : Fin 512, ridx_main_v6 (ix2 (nrow b n) k) q = ix2 q k := fun q =>
    funext fun a => Fin.ext (by
      match a with
      | ⟨0, _⟩ => rfl
      | ⟨1, _⟩ => rfl)
  have hc : idx_main_v7 (idx_main_v8 (ix2 (nrow b n) k)) = ix1 k :=
    funext fun a => Fin.ext (by
      match a with
      | ⟨0, _⟩ => rfl)
  rw [val_main_v10_apply, val_main_v9_apply, val_main_v6_apply, val_main_v8_apply, val_main_v7_apply,
    val_main_call1_v0_apply, val_main_call1_cst_apply]
  simp only [hl, hr, hc, node1, Ideal.maximumf_def, Ideal.addf_def]
  unfold Cert.Spec.feat Cert.Spec.layer Cert.Spec.lin Cert.Spec.proj
  exact congrArg (max _) Ideal.ofBits_zero_f32

/-- The features laid out over the edges so as to vary with j: entry (b, i, j, l) is entry l of node j's features. -/
theorem fa_apply (x0 : S8x128x256.Idx → EReal) (x1 : S256x512.Idx → EReal) (x2 : S512.Idx → EReal) (x3 : S512x512.Idx → EReal)
    (x4 : S512.Idx → EReal)
    (b : Fin 8) (i j : Fin 128) (l : Fin 512) :
    val_main_v13 (F := Ideal) x0 x1 x2 x3 x4 (ix4 b i j l) = Cert.Spec.feat x0 x1 x2 x3 x4 b j l := by
  have h : idx_main_v11 (idx_main_v12 (idx_main_v13 (ix4 b i j l))) = ix2 (nrow b j) l :=
    funext fun a => Fin.ext (by
      have hb := b.isLt; have hj := j.isLt; have hl := l.isLt
      match a with
      | ⟨0, _⟩ => show ((b.val * 128 + j.val) * 512 + l.val) / 512 = 128 * b.val + j.val; omega
      | ⟨1, _⟩ => show ((b.val * 128 + j.val) * 512 + l.val) % 512 = l.val; omega)
  rw [val_main_v13_apply, val_main_v12_apply, val_main_v11_apply, h, node2]

/-- The features laid out over the edges so as to vary with i: entry (b, i, j, l) is entry l of node i's features. -/
theorem fb_apply (x0 : S8x128x256.Idx → EReal) (x1 : S256x512.Idx → EReal) (x2 : S512.Idx → EReal) (x3 : S512x512.Idx → EReal)
    (x4 : S512.Idx → EReal)
    (b : Fin 8) (i j : Fin 128) (l : Fin 512) :
    val_main_v15 (F := Ideal) x0 x1 x2 x3 x4 (ix4 b i j l) = Cert.Spec.feat x0 x1 x2 x3 x4 b i l := by
  have h : idx_main_v11 (idx_main_v14 (idx_main_v15 (ix4 b i j l))) = ix2 (nrow b i) l :=
    funext fun a => Fin.ext (by
      have hb := b.isLt; have hi := i.isLt; have hl := l.isLt
      match a with
      | ⟨0, _⟩ => show ((b.val * 128 + i.val) * 512 + l.val) / 512 = 128 * b.val + i.val; omega
      | ⟨1, _⟩ => show ((b.val * 128 + i.val) * 512 + l.val) % 512 = l.val; omega)
  rw [val_main_v15_apply, val_main_v14_apply, val_main_v11_apply, h, node2]

/-- The concatenation along the feature axis: node j's features in entries 0 to 511, node i's in entries 512 to 1023. -/
theorem cat_apply (x0 : S8x128x256.Idx → EReal) (x1 : S256x512.Idx → EReal) (x2 : S512.Idx → EReal) (x3 : S512x512.Idx → EReal)
    (x4 : S512.Idx → EReal)
    (b : Fin 8) (i j : Fin 128) (l : Fin 1024) :
    val_main_v16 (F := Ideal) x0 x1 x2 x3 x4 (ix4 b i j l) = (Cert.Spec.cat (Cert.Spec.feat x0 x1 x2 x3 x4 b j) (Cert.Spec.feat x0 x1 x2 x3 x4 b i)) l := by
  unfold val_main_v16 Cert.Spec.cat
  by_cases h : l.val < 512
  · rw [dif_pos h]
    refine (concatenate_pair_apply_left (t := S8x128x128x1024) (s₁ := S8x128x128x512) (s₂ := S8x128x128x512) 3 _ _ _ (ix4 b i j l) rfl (ix4 b i j (⟨l.val, h⟩ : Fin 512)) (fun a => ?_)).trans
      (fa_apply x0 x1 x2 x3 x4 b i j ⟨l.val, h⟩)
    match a with
    | ⟨0, _⟩ => rfl
    | ⟨1, _⟩ => rfl
    | ⟨2, _⟩ => rfl
    | ⟨3, _⟩ => rfl
  · rw [dif_neg h]
    have hl := l.isLt
    refine (concatenate_pair_apply_right (t := S8x128x128x1024) (s₁ := S8x128x128x512) (s₂ := S8x128x128x512) 3 _ _ _ (ix4 b i j l) rfl rfl
      (ix4 b i j (⟨l.val - 512, by omega⟩ : Fin 512)) (fun a ha => ?_) ?_).trans
      (fb_apply x0 x1 x2 x3 x4 b i j ⟨l.val - 512, by omega⟩)
    · match a with
      | ⟨0, _⟩ => rfl
      | ⟨1, _⟩ => rfl
      | ⟨2, _⟩ => rfl
      | ⟨3, _⟩ => exact absurd rfl ha
    · show (l.val - 512) + 512 = l.val
      omega

/-- The first edge layer at row (b, i, j): the flattened row 16384 b + 128 i + j is edge (i, j) of batch b. -/
theorem edge1 (x0 : S8x128x256.Idx → EReal) (x1 : S256x512.Idx → EReal) (x2 : S512.Idx → EReal) (x3 : S512x512.Idx → EReal)
    (x4 : S512.Idx → EReal) (x5 : S1024x512.Idx → EReal) (x6 : S512.Idx → EReal)
    (b : Fin 8) (i j : Fin 128) (k : Fin 512) :
    val_main_v22 (F := Ideal) x0 x1 x2 x3 x4 x5 x6 (ix2 (erow b i j) k) = (Cert.Spec.layer (Cert.Spec.cat (Cert.Spec.feat x0 x1 x2 x3 x4 b j) (Cert.Spec.feat x0 x1 x2 x3 x4 b i)) x5 x6) k := by
  have hl : ∀ q : Fin 1024, idx_main_v17 (lidx_main_v18 (ix2 (erow b i j) k) q) = ix4 b i j q := fun q =>
    funext fun a => Fin.ext (by
      have hb := b.isLt; have hi := i.isLt; have hj := j.isLt; have hq := q.isLt
      match a with
      | ⟨0, _⟩ => show ((16384 * b.val + 128 * i.val + j.val) * 1024 + q.val) / 16777216 = b.val; omega
      | ⟨1, _⟩ => show ((16384 * b.val + 128 * i.val + j.val) * 1024 + q.val) / 131072 % 128 = i.val; omega
      | ⟨2, _⟩ => show ((16384 * b.val + 128 * i.val + j.val) * 1024 + q.val) / 1024 % 128 = j.val; omega
      | ⟨3, _⟩ => show ((16384 * b.val + 128 * i.val + j.val) * 1024 + q.val) % 1024 = q.val; omega)
  have hr : ∀ q : Fin 1024, ridx_main_v18 (ix2 (erow b i j) k) q = ix2 q k := fun q =>
    funext fun a => Fin.ext (by
      match a with
      | ⟨0, _⟩ => rfl
      | ⟨1, _⟩ => rfl)
  have hc : idx_main_v19 (idx_main_v20 (ix2 (erow b i j) k)) = ix1 k :=
    funext fun a => Fin.ext (by
      match a with
      | ⟨0, _⟩ => rfl)
  rw [val_main_v22_apply, val_main_v21_apply, val_main_v18_apply, val_main_v20_apply, val_main_v19_apply,
    val_main_call2_v0_apply, val_main_call2_cst_apply]
  simp only [val_main_v17_apply, hl, hr, hc, cat_apply, Ideal.maximumf_def, Ideal.addf_def]
  unfold Cert.Spec.layer Cert.Spec.lin Cert.Spec.proj
  exact congrArg (max _) Ideal.ofBits_zero_f32

/-- The second edge layer at row (b, i, j). -/
theorem edge2 (x0 : S8x128x256.Idx → EReal) (x1 : S256x512.Idx → EReal) (x2 : S512.Idx → EReal) (x3 : S512x512.Idx → EReal)
    (x4 : S512.Idx → EReal) (x5 : S1024x512.Idx → EReal) (x6 : S512.Idx → EReal) (x7 : S512x512.Idx → EReal) (x8 : S512.Idx → EReal)
    (b : Fin 8) (i j : Fin 128) (k : Fin 512) :
    val_main_v27 (F := Ideal) x0 x1 x2 x3 x4 x5 x6 x7 x8 (ix2 (erow b i j) k) = (Cert.Spec.layer (Cert.Spec.layer (Cert.Spec.cat (Cert.Spec.feat x0 x1 x2 x3 x4 b j) (Cert.Spec.feat x0 x1 x2 x3 x4 b i)) x5 x6) x7 x8) k := by
  have hl : ∀ q : Fin 512, lidx_main_v23 (ix2 (erow b i j) k) q = ix2 (erow b i j) q := fun q =>
    funext fun a => Fin.ext (by
      match a with
      | ⟨0, _⟩ => rfl
      | ⟨1, _⟩ => rfl)
  have hr : ∀ q : Fin 512, ridx_main_v23 (ix2 (erow b i j) k) q = ix2 q k := fun q =>
    funext fun a => Fin.ext (by
      match a with
      | ⟨0, _⟩ => rfl
      | ⟨1, _⟩ => rfl)
  have hc : idx_main_v24 (idx_main_v25 (ix2 (erow b i j) k)) = ix1 k :=
    funext fun a => Fin.ext (by
      match a with
      | ⟨0, _⟩ => rfl)
  rw [val_main_v27_apply, val_main_v26_apply, val_main_v23_apply, val_main_v25_apply, val_main_v24_apply,
    val_main_call3_v0_apply, val_main_call3_cst_apply]
  simp only [hl, hr, hc, edge1, Ideal.maximumf_def, Ideal.addf_def]
  rw [Cert.Spec.layer.eq_1 (Cert.Spec.layer (Cert.Spec.cat (Cert.Spec.feat x0 x1 x2 x3 x4 b j) (Cert.Spec.feat x0 x1 x2 x3 x4 b i)) x5 x6), Cert.Spec.lin, Cert.Spec.proj]
  exact congrArg (max _) Ideal.ofBits_zero_f32

/-- The third edge layer at row (b, i, j). -/
theorem edge3 (x0 : S8x128x256.Idx → EReal) (x1 : S256x512.Idx → EReal) (x2 : S512.Idx → EReal) (x3 : S512x512.Idx → EReal)
    (x4 : S512.Idx → EReal) (x5 : S1024x512.Idx → EReal) (x6 : S512.Idx → EReal) (x7 : S512x512.Idx → EReal) (x8 : S512.Idx → EReal)
    (x9 : S512x512.Idx → EReal) (x10 : S512.Idx → EReal)
    (b : Fin 8) (i j : Fin 128) (k : Fin 512) :
    val_main_v32 (F := Ideal) x0 x1 x2 x3 x4 x5 x6 x7 x8 x9 x10 (ix2 (erow b i j) k) = (Cert.Spec.layer (Cert.Spec.layer (Cert.Spec.layer (Cert.Spec.cat (Cert.Spec.feat x0 x1 x2 x3 x4 b j) (Cert.Spec.feat x0 x1 x2 x3 x4 b i)) x5 x6) x7 x8) x9 x10) k := by
  have hl : ∀ q : Fin 512, lidx_main_v28 (ix2 (erow b i j) k) q = ix2 (erow b i j) q := fun q =>
    funext fun a => Fin.ext (by
      match a with
      | ⟨0, _⟩ => rfl
      | ⟨1, _⟩ => rfl)
  have hr : ∀ q : Fin 512, ridx_main_v28 (ix2 (erow b i j) k) q = ix2 q k := fun q =>
    funext fun a => Fin.ext (by
      match a with
      | ⟨0, _⟩ => rfl
      | ⟨1, _⟩ => rfl)
  have hc : idx_main_v29 (idx_main_v30 (ix2 (erow b i j) k)) = ix1 k :=
    funext fun a => Fin.ext (by
      match a with
      | ⟨0, _⟩ => rfl)
  rw [val_main_v32_apply, val_main_v31_apply, val_main_v28_apply, val_main_v30_apply, val_main_v29_apply,
    val_main_call4_v0_apply, val_main_call4_cst_apply]
  simp only [hl, hr, hc, edge2, Ideal.maximumf_def, Ideal.addf_def]
  rw [Cert.Spec.layer.eq_1 (Cert.Spec.layer (Cert.Spec.layer (Cert.Spec.cat (Cert.Spec.feat x0 x1 x2 x3 x4 b j) (Cert.Spec.feat x0 x1 x2 x3 x4 b i)) x5 x6) x7 x8), Cert.Spec.lin, Cert.Spec.proj]
  exact congrArg (max _) Ideal.ofBits_zero_f32

/-- The final affine map at row (b, i, j). -/
theorem out_row (x0 : S8x128x256.Idx → EReal) (x1 : S256x512.Idx → EReal) (x2 : S512.Idx → EReal) (x3 : S512x512.Idx → EReal)
    (x4 : S512.Idx → EReal) (x5 : S1024x512.Idx → EReal) (x6 : S512.Idx → EReal) (x7 : S512x512.Idx → EReal) (x8 : S512.Idx → EReal)
    (x9 : S512x512.Idx → EReal) (x10 : S512.Idx → EReal) (x11 : S512x2.Idx → EReal) (x12 : S2.Idx → EReal)
    (b : Fin 8) (i j : Fin 128) (o : Fin 2) :
    val_main_v36 (F := Ideal) x0 x1 x2 x3 x4 x5 x6 x7 x8 x9 x10 x11 x12 (ix2 (erow b i j) o)
      = Cert.Spec.lin (Cert.Spec.layer (Cert.Spec.layer (Cert.Spec.layer (Cert.Spec.cat (Cert.Spec.feat x0 x1 x2 x3 x4 b j) (Cert.Spec.feat x0 x1 x2 x3 x4 b i)) x5 x6) x7 x8) x9 x10) x11 x12 o := by
  have hl : ∀ q : Fin 512, lidx_main_v33 (ix2 (erow b i j) o) q = ix2 (erow b i j) q := fun q =>
    funext fun a => Fin.ext (by
      match a with
      | ⟨0, _⟩ => rfl
      | ⟨1, _⟩ => rfl)
  have hr : ∀ q : Fin 512, ridx_main_v33 (ix2 (erow b i j) o) q = ix2 q o := fun q =>
    funext fun a => Fin.ext (by
      match a with
      | ⟨0, _⟩ => rfl
      | ⟨1, _⟩ => rfl)
  have hc : idx_main_v34 (idx_main_v35 (ix2 (erow b i j) o)) = ix1 o :=
    funext fun a => Fin.ext (by
      match a with
      | ⟨0, _⟩ => rfl)
  rw [val_main_v36_apply, val_main_v33_apply, val_main_v35_apply, val_main_v34_apply]
  simp only [hl, hr, hc, edge3, Ideal.addf_def]
  rw [Cert.Spec.lin, Cert.Spec.proj]

/-- The reference's result at (b, i, j, o) is the specification's reference arrangement. -/
theorem ref_apply (x0 : S8x128x256.Idx → EReal) (x1 : S256x512.Idx → EReal) (x2 : S512.Idx → EReal) (x3 : S512x512.Idx → EReal)
    (x4 : S512.Idx → EReal) (x5 : S1024x512.Idx → EReal) (x6 : S512.Idx → EReal) (x7 : S512x512.Idx → EReal) (x8 : S512.Idx → EReal)
    (x9 : S512x512.Idx → EReal) (x10 : S512.Idx → EReal) (x11 : S512x2.Idx → EReal) (x12 : S2.Idx → EReal)
    (b : Fin 8) (i j : Fin 128) (o : Fin 2) :
    val_main_v37 (F := Ideal) x0 x1 x2 x3 x4 x5 x6 x7 x8 x9 x10 x11 x12 (ix4 b i j o)
      = Cert.Spec.outR x0 x1 x2 x3 x4 x5 x6 x7 x8 x9 x10 x11 x12 b i j o := by
  have h : idx_main_v37 (ix4 b i j o) = ix2 (erow b i j) o :=
    funext fun a => Fin.ext (by
      have hb := b.isLt; have hi := i.isLt; have hj := j.isLt; have ho := o.isLt
      match a with
      | ⟨0, _⟩ => show (((b.val * 128 + i.val) * 128 + j.val) * 2 + o.val) / 2 = 16384 * b.val + 128 * i.val + j.val; omega
      | ⟨1, _⟩ => show (((b.val * 128 + i.val) * 128 + j.val) * 2 + o.val) % 2 = o.val; omega)
  rw [val_main_v37_apply, h, out_row]
  rfl

end Cert.ReferenceIdeal.RefSpec

end
-- ==== Proof.lean ====
/-
  The certificate of a graph edge model: a two-layer node network on f32[8, 128, 256], then for every ordered pair
  (i, j) of a batch's 128 nodes three rectified dense layers on the concatenation of node j's and node i's features and
  an affine map to two values, f32[8, 128, 128, 2].

  The reference materialises the concatenation, f32[8, 128, 128, 1024], and multiplies it by the 1024 × 512 weight. The
  kernel never builds it: a first pallas_call forms per node the products of its features with the upper and with the
  lower 512 rows of that weight, and a second pallas_call adds node i's lower product to node j's upper product before
  the bias and the rectifier.  On the extended reals the two are one function: a sum over 1024 indices splits at 512,
  and addition is commutative (`Cert.Spec.layer_cat`); every rounding to sixteen bits is the identity there, a
  `tpu.matmul` into a zero accumulator and the host's `dot_general` are the same sum, and the rectifier is `max · 0`
  on both sides.  Nothing in the argument needs the inputs to be finite.

  The kernel's result array is read off its run region by region (`NodeValue`, `EdgeValue`, joined through the host
  operations in `Glue`), the reference's off its run operation by operation (`RefSpec`); both are stated against the
  program-free specification `Cert.Spec`.
-/
import proofs.«152844_j21406117003470_1_alg».proof.Defs
import proofs.«152844_j21406117003470_1_alg».proof.Proof.Gen.Kernel
import proofs.«152844_j21406117003470_1_alg».proof.Proof.Gen.Kernel.Frame
import proofs.«152844_j21406117003470_1_alg».proof.Proof.Gen.KernelIdeal
import proofs.«152844_j21406117003470_1_alg».proof.Proof.Gen.KernelIdeal.Frame
import proofs.«152844_j21406117003470_1_alg».proof.Proof.Gen.ReferenceIdeal
import proofs.«152844_j21406117003470_1_alg».proof.Proof.Gen.ReferenceIdeal.Run
import proofs.«152844_j21406117003470_1_alg».proof.Proof.Gen.ReferenceIdeal.Read
import proofs.«152844_j21406117003470_1_alg».proof.Proof.Gen.Pre_finite_inputs
import proofs.«152844_j21406117003470_1_alg».proof.Proof.Spec
import proofs.«152844_j21406117003470_1_alg».proof.Proof.KernelRun
import proofs.«152844_j21406117003470_1_alg».proof.Proof.Glue
import proofs.«152844_j21406117003470_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the result array at one function of the argument arrays: the kernel's at `outK` with the
    halves of the 1024-row weight, the reference's at `outR`, equal by `outR_eq_outK`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W4 m ρ c (Proc.devRef .tc Cert.KernelIdeal.main_v11),
    Cert.KernelIdeal.KernelRun.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12⟩ := hagree c
  rw [a0, a1, a2, a3, a4, a5, a6, a7, a8, a9, a10, a11, a12]
  refine (Cert.ReferenceIdeal.Read.val_main_v37_eq (F := Ideal) _ _ _ _ _ _ _ _ _ _ _ _ _).trans ?_
  funext idx
  rw [eq_ix4 idx]
  exact ((Cert.ReferenceIdeal.RefSpec.ref_apply _ _ _ _ _ _ _ _ _ _ _ _ _ _ _ _ _).trans
    (Cert.Spec.outR_eq_outK _ _ _ _ _ _ _ _ _ _ _ _ _ _ _ _ _)).trans
    (Cert.KernelIdeal.Glue.result_apply m ρ c _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
